-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x6 : Shape := ⟨2, ![1600000, 6]⟩
abbrev S1000000x42 : Shape := ⟨2, ![1000000, 42]⟩
abbrev S2x1600000 : Shape := ⟨2, ![2, 1600000]⟩
abbrev S1000000x3 : Shape := ⟨2, ![1000000, 3]⟩
abbrev S8x6 : Shape := ⟨2, ![8, 6]⟩
abbrev S128x8 : Shape := ⟨2, ![128, 8]⟩
abbrev S8x42 : Shape := ⟨2, ![8, 42]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S1000000x1 : Shape := ⟨2, ![1000000, 1]⟩
abbrev S1000000 : Shape := ⟨1, ![1000000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x6 : S_.BroadcastsInDim S1600000x6 (![] : Fin 0 → Fin S1600000x6.rank)
  reducesTo_S1600000x6_S_d0_1 : S1600000x6.ReducesTo [0, 1] S_
  bcast_S_S1000000x42 : S_.BroadcastsInDim S1000000x42 (![] : Fin 0 → Fin S1000000x42.rank)
  reducesTo_S1000000x42_S_d0_1 : S1000000x42.ReducesTo [0, 1] S_
  bcast_S_S8x6 : S_.BroadcastsInDim S8x6 (![] : Fin 0 → Fin S8x6.rank)
  reducesTo_S8x6_S_d0_1 : S8x6.ReducesTo [0, 1] S_
  bcast_S_S128x8 : S_.BroadcastsInDim S128x8 (![] : Fin 0 → Fin S128x8.rank)
  reducesTo_S128x8_S_d0_1 : S128x8.ReducesTo [0, 1] S_
  bcast_S_S8x42 : S_.BroadcastsInDim S8x42 (![] : Fin 0 → Fin S8x42.rank)
  reducesTo_S8x42_S_d0_1 : S8x42.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  slices_S1000000x3_S1000000x1_0_1 : S1000000x3.Slices ![0, 1] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v79 : IVec S_ 1) (main_v83 : IVec S1000000 1) (main_v85 : IVec S1000000 32) (main_v86 : IVec S1000000 32) : IVec S_ 1 :=
  let main_v87 : IVec S1000000 1 := cmpi .slt main_v85 main_v86
  let main_v88 : IVec S1000000 1 := andi main_v83 main_v87
  let main_c_31 : IVec S_ 1 := constantI S_ 1 1#1
  let main_v89 : IVec S_ 1 := (fun x v => Host.reduce IntOp.andi x v reducesTo_S1000000_S_d0 h_S_) main_v88 main_c_31
  let main_v90 : IVec S_ 1 := andi main_v79 main_v89
  main_v90

def fn_part4 {F : FTy → Type} [FloatOps F] (main_arg3 : IVec S2x1600000 32) (main_arg4 : IVec S1000000x3 32) (main_v63 : IVec S_ 1) (main_v67 : IVec S_ 1) : IVec S_ 1 :=
  let main_v68 : IVec S_ 1 := andi main_v63 main_v67
  let main_v69 : IVec S1x1600000 32 := (extractStridedSlice S1x1600000 ![0, 0] · slices_S2x1600000_S1x1600000_0_0) main_arg3
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_v73 : IVec S1x1600000 32 := (extractStridedSlice S1x1600000 ![0, 0] · slices_S2x1600000_S1x1600000_0_0) main_arg3
  let main_v74 : IVec S1600000 32 := shapeCast S1600000 main_v73 shapeCasts_S1x1600000_S1600000
  let main_c_27 : IVec S_ 32 := constantI S_ 32 100000#32
  let main_v75 : IVec S1600000 32 := broadcastInDim S1600000 ![] bcast_S_S1600000 main_c_27
  let main_v76 : IVec S1600000 1 := cmpi .slt main_v74 main_v75
  let main_v77 : IVec S1600000 1 := andi main_v72 main_v76
  let main_c_28 : IVec S_ 1 := constantI S_ 1 1#1
  let main_v78 : IVec S_ 1 := (fun x v => Host.reduce IntOp.andi x v reducesTo_S1600000_S_d0 h_S_) main_v77 main_c_28
  let main_v79 : IVec S_ 1 := andi main_v68 main_v78
  let main_v80 : IVec S1000000x1 32 := (extractStridedSlice S1000000x1 ![0, 1] · slices_S1000000x3_S1000000x1_0_1) main_arg4
  let main_v81 : IVec S1000000 32 := shapeCast S1000000 main_v80 shapeCasts_S1000000x1_S1000000
  let main_c_29 : IVec S_ 32 := constantI S_ 32 0#32
  let main_v82 : IVec S1000000 32 := broadcastInDim S1000000 ![] bcast_S_S1000000 main_c_29
  let main_v83 : IVec S1000000 1 := cmpi .sge main_v81 main_v82
  let main_v84 : IVec S1000000x1 32 := (extractStridedSlice S1000000x1 ![0, 1] · slices_S1000000x3_S1000000x1_0_1) main_arg4
  let main_v85 : IVec S1000000 32 := shapeCast S1000000 main_v84 shapeCasts_S1000000x1_S1000000
  let main_c_30 : IVec S_ 32 := constantI S_ 32 100000#32
  let main_v86 : IVec S1000000 32 := broadcastInDim S1000000 ![] bcast_S_S1000000 main_c_30
  fn_part5 (F := F) main_v79 main_v83 main_v85 main_v86

def fn_part3 {F : FTy → Type} [FloatOps F] (main_arg3 : IVec S2x1600000 32) (main_arg4 : IVec S1000000x3 32) (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_v63 main_v67

def fn_part2 {F : FTy → Type} [FloatOps F] (main_arg3 : IVec S2x1600000 32) (main_arg4 : IVec S1000000x3 32) (main_arg9 : FVec F S128x128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg3 main_arg4 main_arg13 main_arg14 main_arg15 main_v48 main_v49 main_v50

def fn_part1 {F : FTy → Type} [FloatOps F] (main_arg3 : IVec S2x1600000 32) (main_arg4 : IVec S1000000x3 32) (main_arg6 : FVec F S128x8 .f32) (main_arg7 : FVec F S8x42 .f32) (main_arg8 : FVec F S128x8 .f32) (main_arg9 : FVec F S128x128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S8x6 1) : IVec S_ 1 :=
  let main_c_5 : IVec S_ 1 := constantI S_ 1 1#1
  let main_v17 : IVec S_ 1 := (fun x v => Host.reduce IntOp.andi x v reducesTo_S8x6_S_d0_1 h_S_) main_v16 main_c_5
  let main_v18 : IVec S_ 1 := andi main_v13 main_v17
  let main_v19 : FVec F S128x8 .f32 := Host.absf main_arg6
  let main_cst_6 : FVec F S_ .f32 := constant S_ .f32 0x7F800000#32
  let main_v20 : FVec F S128x8 .f32 := broadcastInDim S128x8 ![] bcast_S_S128x8 main_cst_6
  let main_v21 : IVec S128x8 1 := cmpf .olt main_v19 main_v20
  let main_c_7 : IVec S_ 1 := constantI S_ 1 1#1
  let main_v22 : IVec S_ 1 := (fun x v => Host.reduce IntOp.andi x v reducesTo_S128x8_S_d0_1 h_S_) main_v21 main_c_7
  let main_v23 : IVec S_ 1 := andi main_v18 main_v22
  let main_v24 : FVec F S8x42 .f32 := Host.absf main_arg7
  let main_cst_8 : FVec F S_ .f32 := constant S_ .f32 0x7F800000#32
  let main_v25 : FVec F S8x42 .f32 := broadcastInDim S8x42 ![] bcast_S_S8x42 main_cst_8
  let main_v26 : IVec S8x42 1 := cmpf .olt main_v24 main_v25
  let main_c_9 : IVec S_ 1 := constantI S_ 1 1#1
  let main_v27 : IVec S_ 1 := (fun x v => Host.reduce IntOp.andi x v reducesTo_S8x42_S_d0_1 h_S_) main_v26 main_c_9
  let main_v28 : IVec S_ 1 := andi main_v23 main_v27
  let main_v29 : FVec F S128x8 .f32 := Host.absf main_arg8
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg3 main_arg4 main_arg9 main_arg10 main_arg11 main_arg12 main_arg13 main_arg14 main_arg15 main_v33

def fn {F : FTy → Type} [FloatOps F] (main_arg0 : FVec F S100000x128 .f32) (main_arg1 : FVec F S1600000x6 .f32) (main_arg2 : FVec F S1000000x42 .f32) (main_arg3 : IVec S2x1600000 32) (main_arg4 : IVec S1000000x3 32) (main_arg5 : FVec F S8x6 .f32) (main_arg6 : FVec F S128x8 .f32) (main_arg7 : FVec F S8x42 .f32) (main_arg8 : FVec F S128x8 .f32) (main_arg9 : FVec F S128x128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x6 .f32 := Host.absf main_arg1
  let main_cst_0 : FVec F S_ .f32 := constant S_ .f32 0x7F800000#32
  let main_v5 : FVec F S1600000x6 .f32 := broadcastInDim S1600000x6 ![] bcast_S_S1600000x6 main_cst_0
  let main_v6 : IVec S1600000x6 1 := cmpf .olt main_v4 main_v5
  let main_c_1 : IVec S_ 1 := constantI S_ 1 1#1
  let main_v7 : IVec S_ 1 := (fun x v => Host.reduce IntOp.andi x v reducesTo_S1600000x6_S_d0_1 h_S_) main_v6 main_c_1
  let main_v8 : IVec S_ 1 := andi main_v3 main_v7
  let main_v9 : FVec F S1000000x42 .f32 := Host.absf main_arg2
  let main_cst_2 : FVec F S_ .f32 := constant S_ .f32 0x7F800000#32
  let main_v10 : FVec F S1000000x42 .f32 := broadcastInDim S1000000x42 ![] bcast_S_S1000000x42 main_cst_2
  let main_v11 : IVec S1000000x42 1 := cmpf .olt main_v9 main_v10
  let main_c_3 : IVec S_ 1 := constantI S_ 1 1#1
  let main_v12 : IVec S_ 1 := (fun x v => Host.reduce IntOp.andi x v reducesTo_S1000000x42_S_d0_1 h_S_) main_v11 main_c_3
  let main_v13 : IVec S_ 1 := andi main_v8 main_v12
  let main_v14 : FVec F S8x6 .f32 := Host.absf main_arg5
  let main_cst_4 : FVec F S_ .f32 := constant S_ .f32 0x7F800000#32
  let main_v15 : FVec F S8x6 .f32 := broadcastInDim S8x6 ![] bcast_S_S8x6 main_cst_4
  let main_v16 : IVec S8x6 1 := cmpf .olt main_v14 main_v15
  fn_part1 (F := F) main_arg3 main_arg4 main_arg6 main_arg7 main_arg8 main_arg9 main_arg10 main_arg11 main_arg12 main_arg13 main_arg14 main_arg15 main_v13 main_v16
-- ==== Kernel.lean ====
abbrev S100000x128 : Shape := ⟨2, ![100000, 128]⟩
abbrev S1600000x6 : Shape := ⟨2, ![1600000, 6]⟩
abbrev S1000000x42 : Shape := ⟨2, ![1000000, 42]⟩
abbrev S2x1600000 : Shape := ⟨2, ![2, 1600000]⟩
abbrev S1000000x3 : Shape := ⟨2, ![1000000, 3]⟩
abbrev S8x6 : Shape := ⟨2, ![8, 6]⟩
abbrev S128x8 : Shape := ⟨2, ![128, 8]⟩
abbrev S8x42 : Shape := ⟨2, ![8, 42]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S1x128 : Shape := ⟨2, ![1, 128]⟩
abbrev S4000x128 : Shape := ⟨2, ![4000, 128]⟩
abbrev S1x1600000 : Shape := ⟨2, ![1, 1600000]⟩
abbrev S1600000 : Shape := ⟨1, ![1600000]⟩
abbrev S1000000x1 : Shape := ⟨2, ![1000000, 1]⟩
abbrev S1000000 : Shape := ⟨1, ![1000000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1000000x128 : Shape := ⟨2, ![1000000, 128]⟩
abbrev S4000x42 : Shape := ⟨2, ![4000, 42]⟩
abbrev S4000x8 : Shape := ⟨2, ![4000, 8]⟩
abbrev S4000x6 : Shape := ⟨2, ![4000, 6]⟩

abbrev nBuf : Space → Nat
  | .hbm => 95
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S1600000x6, .f32⟩
  | .hbm, ⟨2, _⟩ => ⟨S1000000x42, .f32⟩
  | .hbm, ⟨3, _⟩ => ⟨S2x1600000, .i32⟩
  | .hbm, ⟨4, _⟩ => ⟨S1000000x3, .i32⟩
  | .hbm, ⟨5, _⟩ => ⟨S8x6, .f32⟩
  | .hbm, ⟨6, _⟩ => ⟨S128x8, .f32⟩
  | .hbm, ⟨7, _⟩ => ⟨S8x42, .f32⟩
  | .hbm, ⟨8, _⟩ => ⟨S128x8, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S6x8, .f32⟩
  | .hbm, ⟨21, _⟩ => ⟨S8x128, .f32⟩
  | .hbm, ⟨22, _⟩ => ⟨S42x8, .f32⟩
  | .hbm, ⟨23, _⟩ => ⟨S8x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S1000000x1, .i32⟩
  | .hbm, ⟨34, _⟩ => ⟨S1000000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x128, .f32⟩
  | .hbm, ⟨54, _⟩ => ⟨S1600000x128, .i1⟩
  | .hbm, ⟨55, _⟩ => ⟨S_, .f32⟩
  | .hbm, ⟨56, _⟩ => ⟨S1600000x128, .f32⟩
  | .hbm, ⟨57, _⟩ => ⟨S1600000x128, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1, .i32⟩
  | .hbm, ⟨67, _⟩ => ⟨S_, .i32⟩
  | .hbm, ⟨68, _⟩ => ⟨S1000000x1, .i32⟩
  | .hbm, ⟨69, _⟩ => ⟨S1000000x1, .i1⟩
  | .hbm, ⟨70, _⟩ => ⟨S1x1, .i32⟩
  | .hbm, ⟨71, _⟩ => ⟨S1000000x1, .i32⟩
  | .hbm, ⟨72, _⟩ => ⟨S1000000x1, .i1⟩
  | .hbm, ⟨73, _⟩ => ⟨S1000000x1, .i1⟩
  | .hbm, ⟨74, _⟩ => ⟨S_, .i1⟩
  | .hbm, ⟨75, _⟩ => ⟨S1000000, .i1⟩
  | .hbm, ⟨76, _⟩ => ⟨S1000000x128, .f32⟩
  | .hbm, ⟨77, _⟩ => ⟨S1000000x128, .i1⟩
  | .hbm, ⟨78, _⟩ => ⟨S_, .f32⟩
  | .hbm, ⟨79, _⟩ => ⟨S1000000x128, .f32⟩
  | .hbm, ⟨80, _⟩ => ⟨S1000000x128, .f32⟩
  | .hbm, ⟨81, _⟩ => ⟨S1x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S100000x128, .f32⟩
  | .hbm, ⟨94, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x42, .f32⟩
  | .local _ .vmem, ⟨14, _⟩ => ⟨S4000x42, .f32⟩
  | .local _ .vmem, ⟨15, _⟩ => ⟨S4000x128, .f32⟩
  | .local _ .vmem, ⟨16, _⟩ => ⟨S4000x128, .f32⟩
  | .local _ .vmem, ⟨17, _⟩ => ⟨S42x8, .f32⟩
  | .local _ .vmem, ⟨18, _⟩ => ⟨S8x128, .f32⟩
  | .local _ .vmem, ⟨19, _⟩ => ⟨S1x128, .f32⟩
  | .local _ .vmem, ⟨20, _⟩ => ⟨S4000x6, .f32⟩
  | .local _ .vmem, ⟨21, _⟩ => ⟨S4000x6, .f32⟩
  | .local _ .vmem, ⟨22, _⟩ => ⟨S6x8, .f32⟩
  | .local _ .vmem, ⟨23, _⟩ => ⟨S8x128, .f32⟩
  | .local _ .vmem, ⟨24, _⟩ => ⟨S4000x128, .f32⟩
  | .local _ .vmem, ⟨25, _⟩ => ⟨S4000x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v18 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst : Ref sig .tc := ⟨.hbm, 83, rfl⟩
abbrev main_v22 : Ref sig .tc := ⟨.hbm, 84, rfl⟩
abbrev main_c : Ref sig .tc := ⟨.hbm, 85, rfl⟩
abbrev main_v23 : Ref sig .tc := ⟨.hbm, 86, rfl⟩
abbrev main_v24 : Ref sig .tc := ⟨.hbm, 87, rfl⟩
abbrev main_c_0 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  transposes_S8x6_S6x8_1_0 : S8x6.Transposes [1, 0] S6x8
  transposes_S128x8_S8x128_1_0 : S128x8.Transposes [1, 0] S8x128
  transposes_S8x42_S42x8_1_0 : S8x42.Transposes [1, 0] S42x8
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1000000x3_S1000000x1_0_1 : S1000000x3.Slices ![0, 1] S1000000x1
  shapeCasts_S1000000x1_S1000000 : S1000000x1.ShapeCasts S1000000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  inb_S4000x42_S4000x42_0_0 : ∀ a, (![0, 0] : Fin 2 → Nat) a + S4000x42.size a ≤ S4000x42.size a
  h_S4000x42 : 0 < S4000x42.numel
  inb_S42x8_S42x8_0_0 : ∀ a, (![0, 0] : Fin 2 → Nat) a + S42x8.size a ≤ S42x8.size a
  h_S42x8 : 0 < S42x8.numel
  shapeCasts_S42x8_S42x8 : S42x8.ShapeCasts S42x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S4000x128_S4000x128 : S4000x128.ShapeCasts S4000x128
  reduces_S4000x128_S128 : S4000x128.Reduces [0] S128
  inb_S4000x6_S4000x6_0_0 : ∀ a, (![0, 0] : Fin 2 → Nat) a + S4000x6.size a ≤ S4000x6.size a
  h_S4000x6 : 0 < S4000x6.numel
  inb_S6x8_S6x8_0_0 : ∀ a, (![0, 0] : Fin 2 → Nat) a + S6x8.size a ≤ S6x8.size a
  h_S6x8 : 0 < S6x8.numel
  shapeCasts_S6x8_S6x8 : S6x8.ShapeCasts S6x8
  bcast_S_S100000x128 : S_.BroadcastsInDim S100000x128 (![] : Fin 0 → Fin S100000x128.rank)
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  gather_S100000x128_S1000000x1_S1000000x128_1_0_n_n_0_1_1128_wf : GatherDims.WF S100000x128 S1000000x1 S1000000x128 [1] [0] [] [0] [] 1 ![1, 128]
  dot_S4000x42_S42x8_S4000x8_1_0_0_1_n_n_wf : DotDims.WF S4000x42 S42x8 S4000x8 [1] [0] [0] [1] [] []
  dot_S4000x8_S8x128_S4000x128_1_0_0_1_n_n_wf : DotDims.WF S4000x8 S8x128 S4000x128 [1] [0] [0] [1] [] []
  dot_S4000x6_S6x8_S4000x8_1_0_0_1_n_n_wf : DotDims.WF S4000x6 S6x8 S4000x8 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x42.size a ≤ S1000000x42.size a
  hwx1_0 : ∀ i : grid1.Coords, EltTy.bits .f32 = 32 ∨ (Rect.block (s := S1000000x42) S4000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1000000x128.size a
  hwx1_1 : ∀ i : grid1.Coords, EltTy.bits .f32 = 32 ∨ (Rect.block (s := S1000000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x6.size a ≤ S1600000x6.size a
  hwx2_0 : ∀ i : grid2.Coords, EltTy.bits .f32 = 32 ∨ (Rect.block (s := S1600000x6) S4000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x8.size a ≤ S6x8.size a
  hwx2_1 : ∀ i : grid2.Coords, EltTy.bits .f32 = 32 ∨ (Rect.block (s := S6x8) S6x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S1600000x128.size a
  hwx2_3 : ∀ i : grid2.Coords, EltTy.bits .f32 = 32 ∨ (Rect.block (s := S1600000x128) S4000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S1600000x128.size a
  hwx2_5 : ∀ i : grid2.Coords, EltTy.bits .f32 = 32 ∨ (Rect.block (s := S1600000x128) S4000x128.size (cc2_transform_5 i) (hinb2_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x42_S42x8_S4000x8_1_0_0_1_n_n : DotDims S4000x42 S42x8 S4000x8 where
  lhsContracting := [1]
  rhsContracting := [0]
  lhsNonContracting := [0]
  rhsNonContracting := [1]
  lhsBatch := []
  rhsBatch := []
  wf := dot_S4000x42_S42x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x6_S6x8_S4000x8_1_0_0_1_n_n : DotDims S4000x6 S6x8 S4000x8 where
  lhsContracting := [1]
  rhsContracting := [0]
  lhsNonContracting := [0]
  rhsNonContracting := [1]
  lhsBatch := []
  rhsBatch := []
  wf := dot_S4000x6_S6x8_S4000x8_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S4000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S4000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S6x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x6 : Shape := ⟨2, ![1600000, 6]⟩
abbrev S1000000x42 : Shape := ⟨2, ![1000000, 42]⟩
abbrev S2x1600000 : Shape := ⟨2, ![2, 1600000]⟩
abbrev S1000000x3 : Shape := ⟨2, ![1000000, 3]⟩
abbrev S8x6 : Shape := ⟨2, ![8, 6]⟩
abbrev S128x8 : Shape := ⟨2, ![128, 8]⟩
abbrev S8x42 : Shape := ⟨2, ![8, 42]⟩
abbrev S128x128 : Shape := ⟨2, ![128, 128]⟩
abbrev S128 : Shape := ⟨1, ![128]⟩
abbrev S1x128 : Shape := ⟨2, ![1, 128]⟩
abbrev S6x8 : Shape := ⟨2, ![6, 8]⟩
abbrev S1600000x8 : Shape := ⟨2, ![1600000, 8]⟩
abbrev S_ : Shape := ⟨0, ![]⟩
abbrev S8x128 : Shape := ⟨2, ![8, 128]⟩
abbrev S1600000x128 : Shape := ⟨2, ![1600000, 128]⟩
abbrev S1x1600000 : Shape := ⟨2, ![1, 1600000]⟩
abbrev S1600000 : Shape := ⟨1, ![1600000]⟩
abbrev S1600000x1 : Shape := ⟨2, ![1600000, 1]⟩
abbrev S42x8 : Shape := ⟨2, ![42, 8]⟩
abbrev S1000000x8 : Shape := ⟨2, ![1000000, 8]⟩
abbrev S1000000x128 : Shape := ⟨2, ![1000000, 128]⟩
abbrev S1000000x1 : Shape := ⟨2, ![1000000, 1]⟩
abbrev S1000000 : Shape := ⟨1, ![1000000]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x6, .f32⟩
  | .hbm, ⟨2, _⟩ => ⟨S1000000x42, .f32⟩
  | .hbm, ⟨3, _⟩ => ⟨S2x1600000, .i32⟩
  | .hbm, ⟨4, _⟩ => ⟨S1000000x3, .i32⟩
  | .hbm, ⟨5, _⟩ => ⟨S8x6, .f32⟩
  | .hbm, ⟨6, _⟩ => ⟨S128x8, .f32⟩
  | .hbm, ⟨7, _⟩ => ⟨S8x42, .f32⟩
  | .hbm, ⟨8, _⟩ => ⟨S128x8, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S6x8, .f32⟩
  | .hbm, ⟨27, _⟩ => ⟨S1600000x8, .f32⟩
  | .hbm, ⟨28, _⟩ => ⟨S1600000x8, .f32⟩
  | .hbm, ⟨29, _⟩ => ⟨S1600000x8, .f32⟩
  | .hbm, ⟨30, _⟩ => ⟨S_, .f32⟩
  | .hbm, ⟨31, _⟩ => ⟨S1600000x8, .f32⟩
  | .hbm, ⟨32, _⟩ => ⟨S1600000x8, .f32⟩
  | .hbm, ⟨33, _⟩ => ⟨S_, .f32⟩
  | .hbm, ⟨34, _⟩ => ⟨S1600000x8, .f32⟩
  | .hbm, ⟨35, _⟩ => ⟨S1600000x8, .f32⟩
  | .hbm, ⟨36, _⟩ => ⟨S1600000x8, .f32⟩
  | .hbm, ⟨37, _⟩ => ⟨S8x128, .f32⟩
  | .hbm, ⟨38, _⟩ => ⟨S1600000x128, .f32⟩
  | .hbm, ⟨39, _⟩ => ⟨S1x1600000, .i32⟩
  | .hbm, ⟨40, _⟩ => ⟨S1600000, .i32⟩
  | .hbm, ⟨41, _⟩ => ⟨S1x1600000, .i32⟩
  | .hbm, ⟨42, _⟩ => ⟨S1600000, .i32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S42x8, .f32⟩
  | .hbm, ⟨54, _⟩ => ⟨S1000000x8, .f32⟩
  | .hbm, ⟨55, _⟩ => ⟨S1000000x8, .f32⟩
  | .hbm, ⟨56, _⟩ => ⟨S1000000x8, .f32⟩
  | .hbm, ⟨57, _⟩ => ⟨S_, .f32⟩
  | .hbm, ⟨58, _⟩ => ⟨S1000000x8, .f32⟩
  | .hbm, ⟨59, _⟩ => ⟨S1000000x8, .f32⟩
  | .hbm, ⟨60, _⟩ => ⟨S_, .f32⟩
  | .hbm, ⟨61, _⟩ => ⟨S1000000x8, .f32⟩
  | .hbm, ⟨62, _⟩ => ⟨S1000000x8, .f32⟩
  | .hbm, ⟨63, _⟩ => ⟨S1000000x8, .f32⟩
  | .hbm, ⟨64, _⟩ => ⟨S8x128, .f32⟩
  | .hbm, ⟨65, _⟩ => ⟨S1000000x128, .f32⟩
  | .hbm, ⟨66, _⟩ => ⟨S128x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S1000000x1, .i32⟩
  | .hbm, ⟨83, _⟩ => ⟨S1000000, .i32⟩
  | .hbm, ⟨84, _⟩ => ⟨S_, .i32⟩
  | .hbm, ⟨85, _⟩ => ⟨S1000000, .i32⟩
  | .hbm, ⟨86, _⟩ => ⟨S1000000, .i1⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S1000000, .i32⟩
  | .hbm, ⟨91, _⟩ => ⟨S1000000x1, .i32⟩
  | .hbm, ⟨92, _⟩ => ⟨S1000000x128, .f32⟩
  | .hbm, ⟨93, _⟩ => ⟨S1000000x128, .f32⟩
  | .hbm, ⟨94, _⟩ => ⟨S_, .f32⟩
  | .hbm, ⟨95, _⟩ => ⟨S128, .f32⟩
  | .hbm, ⟨96, _⟩ => ⟨S1x128, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_1 : Ref sig .tc := ⟨.hbm, 84, rfl⟩
abbrev main_v42 : Ref sig .tc := ⟨.hbm, 85, rfl⟩
abbrev main_v43 : Ref sig .tc := ⟨.hbm, 86, rfl⟩
abbrev main_c_2 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_3 : Ref sig .tc := ⟨.hbm, 99, rfl⟩
abbrev main_v54 : Ref sig .tc := ⟨.hbm, 100, rfl⟩
abbrev main_c_4 : Ref sig .tc := ⟨.hbm, 101, rfl⟩
abbrev main_v55 : Ref sig .tc := ⟨.hbm, 102, rfl⟩
abbrev main_v56 : Ref sig .tc := ⟨.hbm, 103, rfl⟩
abbrev main_c_5 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S8x6_S6x8_1_0 : S8x6.Transposes [1, 0] S6x8
  bcast_S_S1600000x8 : S_.BroadcastsInDim S1600000x8 (![] : Fin 0 → Fin S1600000x8.rank)
  transposes_S128x8_S8x128_1_0 : S128x8.Transposes [1, 0] S8x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S8x42_S42x8_1_0 : S8x42.Transposes [1, 0] S42x8
  bcast_S_S1000000x8 : S_.BroadcastsInDim S1000000x8 (![] : Fin 0 → Fin S1000000x8.rank)
  bcast_S_S100000x128 : S_.BroadcastsInDim S100000x128 (![] : Fin 0 → Fin S100000x128.rank)
  slices_S1000000x3_S1000000x1_0_1 : S1000000x3.Slices ![0, 1] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S128_d0 : S1000000x128.ReducesTo [0] S128
  h_S_ : 0 < S_.numel
  bcast_S1x128_S1600000x128_0_1 : S1x128.BroadcastsInDim S1600000x128 (![0, 1] : Fin 2 → Fin S1600000x128.rank)
  dot_S100000x128_S128x128_S100000x128_1_0_0_1_n_n_wf : DotDims.WF S100000x128 S128x128 S100000x128 [1] [0] [0] [1] [] []
  dot_S1600000x6_S6x8_S1600000x8_1_0_0_1_n_n_wf : DotDims.WF S1600000x6 S6x8 S1600000x8 [1] [0] [0] [1] [] []
  dot_S1600000x8_S8x128_S1600000x128_1_0_0_1_n_n_wf : DotDims.WF S1600000x8 S8x128 S1600000x128 [1] [0] [0] [1] [] []
  gather_S100000x128_S1600000x1_S1600000x128_1_0_n_n_0_1_1128_wf : GatherDims.WF S100000x128 S1600000x1 S1600000x128 [1] [0] [] [0] [] 1 ![1, 128]
  dot_S1000000x42_S42x8_S1000000x8_1_0_0_1_n_n_wf : DotDims.WF S1000000x42 S42x8 S1000000x8 [1] [0] [0] [1] [] []
  dot_S1000000x8_S8x128_S1000000x128_1_0_0_1_n_n_wf : DotDims.WF S1000000x8 S8x128 S1000000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x6_S6x8_S1600000x8_1_0_0_1_n_n : DotDims S1600000x6 S6x8 S1600000x8 where
  lhsContracting := [1]
  rhsContracting := [0]
  lhsNonContracting := [0]
  rhsNonContracting := [1]
  lhsBatch := []
  rhsBatch := []
  wf := dot_S1600000x6_S6x8_S1600000x8_1_0_0_1_n_n_wf
def dot_S1600000x8_S8x128_S1600000x128_1_0_0_1_n_n : DotDims S1600000x8 S8x128 S1600000x128 where
  lhsContracting := [1]
  rhsContracting := [0]
  lhsNonContracting := [0]
  rhsNonContracting := [1]
  lhsBatch := []
  rhsBatch := []
  wf := dot_S1600000x8_S8x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1000000x42_S42x8_S1000000x8_1_0_0_1_n_n : DotDims S1000000x42 S42x8 S1000000x8 where
  lhsContracting := [1]
  rhsContracting := [0]
  lhsNonContracting := [0]
  rhsNonContracting := [1]
  lhsBatch := []
  rhsBatch := []
  wf := dot_S1000000x42_S42x8_S1000000x8_1_0_0_1_n_n_wf
def dot_S1000000x8_S8x128_S1000000x128_1_0_0_1_n_n : DotDims S1000000x8 S8x128 S1000000x128 where
  lhsContracting := [1]
  rhsContracting := [0]
  lhsNonContracting := [0]
  rhsNonContracting := [1]
  lhsBatch := []
  rhsBatch := []
  wf := dot_S1000000x8_S8x128_S1000000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«426307_j3822520894068_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.Spec.lean ====
/-
  The interaction block as functions of whole matrices of extended reals.

  Every stage is a matrix over (row, column): a dense layer X·Wᵗ + b (the weight already transposed, the bias a one-row
  matrix), the gate z·σ(z) entry by entry, the two-layer embedding silu(S·W₁ᵗ)·W₂ᵗ, the node projection
  t = silu(x_down·Wt₁ᵗ)·Wt₂ᵗ + b, the column sums of an entrywise product kept as one row, and the edge message
  G ⊙ R + (one row added to every row). Each of them is ROW-LOCAL except the column sums: row p of the result depends
  on row p of the first operand only, so a band of rows computed from a band of rows is that band of the whole result.
  Only 0 + x = x and the commutative-monoid laws of the extended reals are used: every statement holds at ±∞ too.
-/
import proofs.«426307_j3822520894068_1_alg».proof.Proof.LibDenseForms

noncomputable section

open scoped BigOperators

namespace Cert.Spec

open Idealize.ShloMosaic Idealize.ShloMosaic.ValueIdx DenseRows

/-- The gate z·σ(z), entry by entry (σ the logistic function, 1 / (1 + e⁻ᶻ) on the extended reals). -/
def siluM {m n : Nat} (Z : Mat m n) : Mat m n := fun i => Z i * Ideal.logistic (Z i)

/-- The entrywise product. -/
def mulM {m n : Nat} (A B : Mat m n) : Mat m n := fun i => A i * B i

/-- A dense layer: X·Wᵗ + b, with Wᵗ the weight already transposed and b a one-row matrix. -/
def dense {m k n : Nat} (X : Mat m k) (Wt : Mat k n) (b : Mat 1 n) : Mat m n := addRow (mm X Wt) b

/-- The two-layer embedding silu(S·W₁ᵗ)·W₂ᵗ. -/
def emb {m k h n : Nat} (S : Mat m k) (W1t : Mat k h) (W2t : Mat h n) : Mat m n := mm (siluM (mm S W1t)) W2t

/-- The node projection silu(X·W₁ᵗ)·W₂ᵗ + b. -/
def tproj {m k h n : Nat} (X : Mat m k) (W1t : Mat k h) (W2t : Mat h n) (b : Mat 1 n) : Mat m n := addRow (emb X W1t W2t) b

/-- The column sums of the entrywise product A ⊙ B, as a one-row matrix. -/
def colSumProd {m n : Nat} (A B : Mat m n) : Mat 1 n := fun i => ∑ r : Fin m, A (ix2 r (i 1)) * B (ix2 r (i 1))

/-- The edge message G ⊙ R plus one row added to every row. -/
def edge {m n : Nat} (G R : Mat m n) (ex : Mat 1 n) : Mat m n := addRow (mulM G R) ex

theorem siluM_apply {m n : Nat} (Z : Mat m n) (i : (⟨2, ![m, n]⟩ : Shape).Idx) : siluM Z i = Z i * Ideal.logistic (Z i) := rfl
theorem mulM_apply {m n : Nat} (A B : Mat m n) (i : (⟨2, ![m, n]⟩ : Shape).Idx) : mulM A B i = A i * B i := rfl
theorem colSumProd_apply {m n : Nat} (A B : Mat m n) (u : Fin 1) (q : Fin n) :
    colSumProd A B (ix2 u q) = ∑ r : Fin m, A (ix2 r q) * B (ix2 r q) := rfl

/-! ## Row-locality -/

theorem siluM_rows {m M n : Nat} (X : Mat m n) (A : Mat M n) (p : Fin m) (P : Fin M)
    (h : ∀ c, X (ix2 p c) = A (ix2 P c)) (q : Fin n) : siluM X (ix2 p q) = siluM A (ix2 P q) := by
  show X (ix2 p q) * Ideal.logistic (X (ix2 p q)) = A (ix2 P q) * Ideal.logistic (A (ix2 P q))
  rw [h q]

theorem mulM_rows {m M n : Nat} (X Y : Mat m n) (A B : Mat M n) (p : Fin m) (P : Fin M)
    (h : ∀ c, X (ix2 p c) = A (ix2 P c)) (h' : ∀ c, Y (ix2 p c) = B (ix2 P c)) (q : Fin n) :
    mulM X Y (ix2 p q) = mulM A B (ix2 P q) := by
  show X (ix2 p q) * Y (ix2 p q) = A (ix2 P q) * B (ix2 P q)
  rw [h q, h' q]

theorem dense_rows {m M k n : Nat} (X : Mat m k) (A : Mat M k) (Wt : Mat k n) (b : Mat 1 n) (p : Fin m) (P : Fin M)
    (h : ∀ c, X (ix2 p c) = A (ix2 P c)) (q : Fin n) : dense X Wt b (ix2 p q) = dense A Wt b (ix2 P q) :=
  addRow_rows _ _ b p P (fun c => mm_rows X A Wt p P h c) q

theorem emb_rows {m M k h n : Nat} (X : Mat m k) (A : Mat M k) (W1t : Mat k h) (W2t : Mat h n) (p : Fin m) (P : Fin M)
    (hx : ∀ c, X (ix2 p c) = A (ix2 P c)) (q : Fin n) : emb X W1t W2t (ix2 p q) = emb A W1t W2t (ix2 P q) :=
  mm_rows _ _ W2t p P (fun c => siluM_rows _ _ p P (fun c' => mm_rows X A W1t p P hx c') c) q

theorem tproj_rows {m M k h n : Nat} (X : Mat m k) (A : Mat M k) (W1t : Mat k h) (W2t : Mat h n) (b : Mat 1 n)
    (p : Fin m) (P : Fin M) (hx : ∀ c, X (ix2 p c) = A (ix2 P c)) (q : Fin n) :
    tproj X W1t W2t b (ix2 p q) = tproj A W1t W2t b (ix2 P q) :=
  addRow_rows _ _ b p P (fun c => emb_rows X A W1t W2t p P hx c) q

theorem edge_rows {m M n : Nat} (G R : Mat m n) (G' R' : Mat M n) (ex : Mat 1 n) (p : Fin m) (P : Fin M)
    (hg : ∀ c, G (ix2 p c) = G' (ix2 P c)) (hr : ∀ c, R (ix2 p c) = R' (ix2 P c)) (q : Fin n) :
    edge G R ex (ix2 p q) = edge G' R' ex (ix2 P q) :=
  addRow_rows _ _ ex p P (fun c => mulM_rows G R G' R' p P hg hr c) q

end Cert.Spec

end
-- ==== Proof.Region0.lean ====
import proofs.«426307_j3822520894068_1_alg».proof.Proof.Gen.KernelIdeal.Frame
import proofs.«426307_j3822520894068_1_alg».proof.Proof.Spec

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen DenseRows

theorem hz : (![0, 0] : Fin 2 → Nat) = fun _ => 0 := funext fun a => by fin_cases a <;> rfl

/-- Rounding to a narrower format is the identity on extended reals, so the product of two rounded operands
    accumulated into zero is the matrix product of the operands. -/
theorem matmul_rounded_eq_mm {m k n : Nat} (A : Mat m k) (B : Mat k n) (h1 : FTy.bf16.bits < FTy.f32.bits) :
    matmul (DotDims.plain m k n) none (truncf .bf16 A h1) (truncf .bf16 B h1)
      (constant (⟨2, ![m, n]⟩ : Shape) .f32 0x00000000#32) = mm A B :=
  matmul_plain_eq_mm none A B

/-- The region's contraction (rows of the left operand against rows of the transposed weight) is the plain one. -/
theorem dims_plain : dot_S4000x128_S128x128_S4000x128_1_0_0_1_n_n = DotDims.plain 4000 128 128 := rfl

/-- One block of the first result: the dense layer of the block of rows. -/
theorem blk8 (x0 : Vec Ideal S4000x128 .f32) (x1 : Vec Ideal S128x128 .f32) (x2 : Vec Ideal S1x128 .f32)
    (x3 : Vec Ideal S128x128 .f32) (x4 : Vec Ideal S1x128 .f32) (x5 : Vec Ideal S128x128 .f32) (x6 : Vec Ideal S128x128 .f32) (x7 : Vec Ideal S1x128 .f32) :
    out0_8 x0 x1 x2 x3 x4 x5 x6 x7 = Cert.Spec.dense (x0 : Mat 4000 128) (x1 : Mat 128 128) (x2 : Mat 1 128) := by
  unfold out0_8
  rw [View.canon_unit_zero hz]
  simp only [View.ld_unit_zero (S := S4000x128) hz, View.ld_unit_zero (S := S128x128) hz, View.ld_unit_zero (S := S1x128) hz]
  unfold k0_pay2 k0_pay1
  simp only [shapeCast_self, dims_plain]
  rw [matmul_rounded_eq_mm, bias_vector_form]
  rfl

/-- One block of the second result: the node projection of the dense layer of the block of rows. -/
theorem blk9 (x0 : Vec Ideal S4000x128 .f32) (x1 : Vec Ideal S128x128 .f32) (x2 : Vec Ideal S1x128 .f32)
    (x3 : Vec Ideal S128x128 .f32) (x4 : Vec Ideal S1x128 .f32) (x5 : Vec Ideal S128x128 .f32) (x6 : Vec Ideal S128x128 .f32) (x7 : Vec Ideal S1x128 .f32) :
    out0_9 x0 x1 x2 x3 x4 x5 x6 x7
      = Cert.Spec.tproj (Cert.Spec.dense (x0 : Mat 4000 128) (x3 : Mat 128 128) (x4 : Mat 1 128)) (x5 : Mat 128 128) (x6 : Mat 128 128) (x7 : Mat 1 128) := by
  unfold out0_9
  rw [View.canon_unit_zero hz]
  simp only [View.ld_unit_zero (S := S4000x128) hz, View.ld_unit_zero (S := S128x128) hz, View.ld_unit_zero (S := S1x128) hz]
  unfold k0_pay3 k0_pay1
  simp only [shapeCast_self, dims_plain]
  simp only [matmul_rounded_eq_mm, bias_vector_form]
  rfl

/-! ## Rows of a band -/

/-- A band of 4000 rows, the band number `tt`, of a 100000-row matrix: the dense layer of the band is the band of the
    dense layer. -/
theorem dense_band (tt : Nat) (Y : Mat 4000 128) (A : Mat 100000 128) (W : Mat 128 128) (b : Mat 1 128)
    (hY : ∀ (p : Fin 4000) (P : Fin 100000), P.val = 4000 * tt + p.val → ∀ q : Fin 128, Y (ix2 p q) = A (ix2 P q))
    (y : S4000x128.Idx) (k : S100000x128.Idx) (hk0 : (k 0).val = 4000 * tt + (y 0).val) (hk1 : (k 1).val = (y 1).val) :
    Cert.Spec.dense Y W b y = Cert.Spec.dense A W b k := by
  obtain ⟨p, q, rfl⟩ : ∃ (p : Fin 4000) (q : Fin 128), y = ix2 p q := ⟨y 0, y 1, eq_ix2 y⟩
  obtain ⟨P, Q, rfl⟩ : ∃ (P : Fin 100000) (Q : Fin 128), k = ix2 P Q := ⟨k 0, k 1, eq_ix2 k⟩
  obtain rfl : q = Q := (Fin.ext hk1).symm
  exact Cert.Spec.dense_rows Y A W b p P (hY p P hk0) q

/-- The same for the node projection of the dense layer. -/
theorem tproj_band (tt : Nat) (Y : Mat 4000 128) (A : Mat 100000 128) (W : Mat 128 128) (b : Mat 1 128)
    (W1 W2 : Mat 128 128) (b2 : Mat 1 128)
    (hY : ∀ (p : Fin 4000) (P : Fin 100000), P.val = 4000 * tt + p.val → ∀ q : Fin 128, Y (ix2 p q) = A (ix2 P q))
    (y : S4000x128.Idx) (k : S100000x128.Idx) (hk0 : (k 0).val = 4000 * tt + (y 0).val) (hk1 : (k 1).val = (y 1).val) :
    Cert.Spec.tproj (Cert.Spec.dense Y W b) W1 W2 b2 y = Cert.Spec.tproj (Cert.Spec.dense A W b) W1 W2 b2 k := by
  obtain ⟨p, q, rfl⟩ : ∃ (p : Fin 4000) (q : Fin 128), y = ix2 p q := ⟨y 0, y 1, eq_ix2 y⟩
  obtain ⟨P, Q, rfl⟩ : ∃ (P : Fin 100000) (Q : Fin 128), k = ix2 P Q := ⟨k 0, k 1, eq_ix2 k⟩
  obtain rfl : q = Q := (Fin.ext hk1).symm
  exact Cert.Spec.tproj_rows _ _ W1 W2 b2 p P (fun c => Cert.Spec.dense_rows Y A W b p P (hY p P hk0) c) q

/-! ## The windows' block indices over the grid -/

/-- The row windows (the input rows and the two results) sit at block (t, 0) at point t; every weight and bias window
    at block (0, 0). -/
theorem idx_facts : ∀ t : Fin cfg0.N,
    (win0_0.index t (0 : Fin 2) = t.val ∧ win0_0.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

variable (V : (c : Dev nD) → (b : Ref sig .tc) → Buf (Elt Ideal) ((c : Thread nD τ).loc b))

/-! ## The input blocks, read off the arrays -/

/-- The input block at point t is rows 4000·t … 4000·t + 3999 of the node features. -/
theorem iblk_rows (c : Dev nD) (t : Fin cfg0.N) (p : Fin 4000) (P : Fin 100000) (hP : P.val = 4000 * t.val + p.val)
    (q : Fin 128) : (iblk0 V c 0 t : Mat 4000 128) (ix2 p q) = (V c main_arg0 : Mat 100000 128) (ix2 P q) := by
  obtain ⟨⟨e0, e1⟩, -⟩ := idx_facts t
  show V c main_arg0 (((cfg0.win 0).blk t).view.emb (ix2 p q)) = V c main_arg0 (ix2 P q)
  congr 1
  funext a; apply Fin.ext
  match a with
  | ⟨0, _⟩ => show win0_0.index t (0 : Fin 2) * 4000 + 1 * p.val = P.val; omega
  | ⟨1, _⟩ => show win0_0.index t (1 : Fin 2) * 128 + 1 * q.val = q.val; omega

/-- Each weight and bias window's block is its whole array, at every point. -/
theorem iblk1_eq (c : Dev nD) (t : Fin cfg0.N) : (iblk0 V c 1 t : Mat 128 128) = (V c main_v0 : Mat 128 128) := by
  obtain ⟨-, -, -, ⟨e0, e1⟩, -⟩ := idx_facts t
  funext y
  show V c main_v0 (((cfg0.win 1).blk t).view.emb y) = V c main_v0 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk2_eq (c : Dev nD) (t : Fin cfg0.N) : (iblk0 V c 2 t : Mat 1 128) = (V c main_v8 : Mat 1 128) := by
  obtain ⟨-, -, -, -, ⟨e0, e1⟩, -⟩ := idx_facts t
  funext y
  show V c main_v8 (((cfg0.win 2).blk t).view.emb y) = V c main_v8 y
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk3_eq (c : Dev nD) (t : Fin cfg0.N) : (iblk0 V c 3 t : Mat 128 128) = (V c main_v1 : Mat 128 128) := by
  obtain ⟨-, -, -, -, -, ⟨e0, e1⟩, -⟩ := idx_facts t
  funext y
  show V c main_v1 (((cfg0.win 3).blk t).view.emb y) = V c main_v1 y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4_eq (c : Dev nD) (t : Fin cfg0.N) : (iblk0 V c 4 t : Mat 1 128) = (V c main_v9 : Mat 1 128) := by
  obtain ⟨-, -, -, -, -, -, ⟨e0, e1⟩, -⟩ := idx_facts t
  funext y
  show V c main_v9 (((cfg0.win 4).blk t).view.emb y) = V c main_v9 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem iblk5_eq (c : Dev nD) (t : Fin cfg0.N) : (iblk0 V c 5 t : Mat 128 128) = (V c main_v2 : Mat 128 128) := by
  obtain ⟨-, -, -, -, -, -, -, ⟨e0, e1⟩, -⟩ := idx_facts t
  funext y
  show V c main_v2 (((cfg0.win 5).blk t).view.emb y) = V c main_v2 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem iblk6_eq (c : Dev nD) (t : Fin cfg0.N) : (iblk0 V c 6 t : Mat 128 128) = (V c main_v3 : Mat 128 128) := by
  obtain ⟨-, -, -, -, -, -, -, -, ⟨e0, e1⟩, -⟩ := idx_facts t
  funext y
  show V c main_v3 (((cfg0.win 6).blk t).view.emb y) = V c main_v3 y
  congr 1
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem iblk7_eq (c : Dev nD) (t : Fin cfg0.N) : (iblk0 V c 7 t : Mat 1 128) = (V c main_v10 : Mat 1 128) := by
  obtain ⟨-, -, -, -, -, -, -, -, -, ⟨e0, e1⟩⟩ := idx_facts t
  funext y
  show V c main_v10 (((cfg0.win 7).blk t).view.emb y) = V c main_v10 y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## What each point writes back -/

/-- Point t writes back block t of the dense layer of the whole node-feature array. -/
theorem flushed8_eq (c : Dev nD) (t : Fin cfg0.N) :
    (dat0 (F := Ideal) V c).flushed 8 t = ((cfg0.win 8).blk t).view.read (Elt Ideal)
      (Cert.Spec.dense (V c main_arg0 : Mat 100000 128) (V c main_v0 : Mat 128 128) (V c main_v8 : Mat 1 128)) := by
  show (cfg0.win 8).cut (grid0.coords t) ((dat0 V c).after 8 t) = _
  rw [after0_8, blk8 (iblk0 V c 0 t) (iblk0 V c 1 t) (iblk0 V c 2 t) (iblk0 V c 3 t) (iblk0 V c 4 t) (iblk0 V c 5 t) (iblk0 V c 6 t) (iblk0 V c 7 t),
    iblk1_eq, iblk2_eq]
  obtain ⟨-, ⟨e0, e1⟩, -⟩ := idx_facts t
  funext j
  show Cert.Spec.dense (iblk0 V c 0 t : Mat 4000 128) (V c main_v0 : Mat 128 128) (V c main_v8 : Mat 1 128) j
    = Cert.Spec.dense (V c main_arg0 : Mat 100000 128) (V c main_v0 : Mat 128 128) (V c main_v8 : Mat 1 128) (((cfg0.win 8).blk t).view.emb j)
  refine dense_band t.val _ _ _ _ (fun p P hP q => iblk_rows V c t p P hP q) j _ ?_ ?_
  · show win0_8.index t (0 : Fin 2) * 4000 + 1 * (j 0).val = 4000 * t.val + (j 0).val; omega
  · show win0_8.index t (1 : Fin 2) * 128 + 1 * (j 1).val = (j 1).val; omega

/-- Point t writes back block t of the node projection of the whole node-feature array. -/
theorem flushed9_eq (c : Dev nD) (t : Fin cfg0.N) :
    (dat0 (F := Ideal) V c).flushed 9 t = ((cfg0.win 9).blk t).view.read (Elt Ideal)
      (Cert.Spec.tproj (Cert.Spec.dense (V c main_arg0 : Mat 100000 128) (V c main_v1 : Mat 128 128) (V c main_v9 : Mat 1 128))
        (V c main_v2 : Mat 128 128) (V c main_v3 : Mat 128 128) (V c main_v10 : Mat 1 128)) := by
  show (cfg0.win 9).cut (grid0.coords t) ((dat0 V c).after 9 t) = _
  rw [after0_9, blk9 (iblk0 V c 0 t) (iblk0 V c 1 t) (iblk0 V c 2 t) (iblk0 V c 3 t) (iblk0 V c 4 t) (iblk0 V c 5 t) (iblk0 V c 6 t) (iblk0 V c 7 t),
    iblk3_eq, iblk4_eq, iblk5_eq, iblk6_eq, iblk7_eq]
  obtain ⟨-, -, ⟨e0, e1⟩, -⟩ := idx_facts t
  funext j
  show Cert.Spec.tproj (Cert.Spec.dense (iblk0 V c 0 t : Mat 4000 128) (V c main_v1 : Mat 128 128) (V c main_v9 : Mat 1 128))
      (V c main_v2 : Mat 128 128) (V c main_v3 : Mat 128 128) (V c main_v10 : Mat 1 128) j
    = Cert.Spec.tproj (Cert.Spec.dense (V c main_arg0 : Mat 100000 128) (V c main_v1 : Mat 128 128) (V c main_v9 : Mat 1 128))
      (V c main_v2 : Mat 128 128) (V c main_v3 : Mat 128 128) (V c main_v10 : Mat 1 128) (((cfg0.win 9).blk t).view.emb j)
  refine tproj_band t.val _ _ _ _ _ _ _ (fun p P hP q => iblk_rows V c t p P hP q) j _ ?_ ?_
  · show win0_9.index t (0 : Fin 2) * 4000 + 1 * (j 0).val = 4000 * t.val + (j 0).val; omega
  · show win0_9.index t (1 : Fin 2) * 128 + 1 * (j 1).val = (j 1).val; omega

/-! ## The blocks cover the rows -/

/-- An index of the first result's array is in point t's block iff each coordinate is in the block's range. -/
theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v11_0).slice (win0_8.rect t)).set ↔ _
  rw [View.set_slice_whole, Rect.mem_set_unit]
  exact Iff.rfl

theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v11_1).slice (win0_9.rect t)).set ↔ _
  rw [View.set_slice_whole, Rect.mem_set_unit]
  exact Iff.rfl

/-- Row r lies in the block of point r / 4000. -/
theorem cover8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := rfl
  refine ⟨⟨(i 0).val / 4000, by omega⟩, flush0_8 _, ?_⟩
  obtain ⟨-, ⟨e0, e1⟩, -⟩ := idx_facts ⟨(i 0).val / 4000, by omega⟩
  rw [mem_blk8]
  intro a
  match a with
  | ⟨0, _⟩ =>
    show win0_8.index ⟨(i 0).val / 4000, _⟩ (0 : Fin 2) * 4000 ≤ (i 0).val ∧ (i 0).val < win0_8.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, _⟩ (1 : Fin 2) * 128 ≤ (i 1).val ∧ (i 1).val < win0_8.index ⟨(i 0).val / 4000, _⟩ (1 : Fin 2) * 128 + 128
    rw [e1]; omega

theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := rfl
  refine ⟨⟨(i 0).val / 4000, by omega⟩, flush0_9 _, ?_⟩
  obtain ⟨-, -, ⟨e0, e1⟩, -⟩ := idx_facts ⟨(i 0).val / 4000, by omega⟩
  rw [mem_blk9]
  intro a
  match a with
  | ⟨0, _⟩ =>
    show win0_9.index ⟨(i 0).val / 4000, _⟩ (0 : Fin 2) * 4000 ≤ (i 0).val ∧ (i 0).val < win0_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, _⟩ (1 : Fin 2) * 128 ≤ (i 1).val ∧ (i 1).val < win0_9.index ⟨(i 0).val / 4000, _⟩ (1 : Fin 2) * 128 + 128
    rw [e1]; omega

/-! ## The two results -/

/-- The first region's first result: x_up = x·W_upᵗ + b_up over all 100000 rows. -/
theorem xup_arr (c : Dev nD) :
    ((dat0 (F := Ideal) V c).arrAt 8 cfg0.N : Mat 100000 128)
      = Cert.Spec.dense (V c main_arg0 : Mat 100000 128) (V c main_v0 : Mat 128 128) (V c main_v8 : Mat 1 128) :=
  (dat0 (F := Ideal) V c).arrAt_eq_of_cover 8 _ (fun t _ => flushed8_eq V c t) cover8

/-- The first region's second result: t = silu(x_down·W_t1ᵗ)·W_t2ᵗ + b_t2 with x_down = x·W_downᵗ + b_down. -/
theorem t_arr (c : Dev nD) :
    ((dat0 (F := Ideal) V c).arrAt 9 cfg0.N : Mat 100000 128)
      = Cert.Spec.tproj (Cert.Spec.dense (V c main_arg0 : Mat 100000 128) (V c main_v1 : Mat 128 128) (V c main_v9 : Mat 1 128))
          (V c main_v2 : Mat 128 128) (V c main_v3 : Mat 128 128) (V c main_v10 : Mat 1 128) :=
  (dat0 (F := Ideal) V c).arrAt_eq_of_cover 9 _ (fun t _ => flushed9_eq V c t) cover9

end Cert.KernelIdeal.Region0

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Region1.lean ====
/-
  The second region: the column sums of embedding ⊙ gathered values, accumulated over a grid of 250 points.

  Each grid point reads a block of 4000 rows of the basis values S (4000 × 42) and of the gathered node values
  T (4000 × 128), together with the two transposed weights W₁ᵗ (42 × 8) and W₂ᵗ (8 × 128), and adds to a one-row
  accumulator (1 × 128), column by column, the sum over the block's rows of

      emb(S, W₁ᵗ, W₂ᵗ)(r, q) · T(r, q),      emb(S, W₁ᵗ, W₂ᵗ) = silu(S · W₁ᵗ) · W₂ᵗ.

  At the first point the accumulator is first reset to zero; at every later point it holds what the point before
  left. The accumulator's block never moves and is written back once, after the last point.

  Read over the extended reals (narrowing and widening of formats are the identity, a product accumulated into a
  zero splat is the matrix product since 0 + x = x):

  * what one point leaves in the accumulator is its previous contents (or the zero splat) plus the point's
    contribution (out_A, out_B), and that contribution at column q is the sum over the block's 4000 rows of
    embedding entry times gathered entry (pay2_apply);
  * the embedding is row-local, so row r of the block at point t contributes the term of row 4000·t + r of the whole
    arrays: the point adds tile t of the column sum (contrib);
  * hence after point n the accumulator holds 0 + tile 0 + … + tile n, by the recursion on the point (outsAt_last);
    after the last point that is the sum of all 250 tiles, and a sum over 250 · 4000 rows is the sum over the 250
    tiles of the sums over each tile's 4000 rows;
  * the single write-back, after the last point, writes the accumulator's block, which is the whole result array
    (final_arr).

  Only associativity and commutativity of +, 0 + x = x and the row-locality of the matrix product are used: every
  statement holds at the infinities as well.
-/
import proofs.«426307_j3822520894068_1_alg».proof.Proof.Gen.KernelIdeal.Frame
import proofs.«426307_j3822520894068_1_alg».proof.Proof.Spec
import proofs.«426307_j3822520894068_1_alg».proof.Proof.LibTileSums
import Idealize.ShloMosaic.Lib.Pipeline.Value
set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen DenseRows

section Pieces
variable {F : FTy → Type} [FloatOps F]

/-- The offsets (0, 0), spelt as the constant function. -/
theorem hz : (![0, 0] : Fin 2 → Nat) = fun _ => 0 := funext fun a => by fin_cases a <;> rfl

/-- A point other than the first: the one store that covers the accumulator block leaves the point's contribution
    added to what the block held (xo). -/
theorem out_B (c : Dev nD) (i : grid1.Coords) (a1 : Memref sig .tc .vmem S4000x42 .f32) (h1 : a1.IsWhole)
    (a2 : Memref sig .tc .vmem S4000x128 .f32) (h2 : a2.IsWhole) (a3 : Memref sig .tc .vmem S42x8 .f32) (h3 : a3.IsWhole)
    (a4 : Memref sig .tc .vmem S8x128 .f32) (h4 : a4.IsWhole) (a5 : Memref sig .tc .vmem S1x128 .f32) (h5 : a5.IsWhole)
    (hc : ¬cond1_0 i) (x0 : Vec F S4000x42 .f32) (x1 : Vec F S4000x128 .f32) (x2 : Vec F S42x8 .f32)
    (x3 : Vec F S8x128 .f32) (xo : Vec F S1x128 .f32) :
    out1_B_4 c i a1 h1 a2 h2 a3 h3 a4 h4 a5 h5 hc x0 x1 x2 x3 xo = k1_pay2 x0 x2 x3 x1 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S4000x42) hz, View.ld_unit_zero (S := S4000x128) hz, View.ld_unit_zero (S := S42x8) hz,
    View.ld_unit_zero (S := S8x128) hz, View.ld_unit_zero (S := S1x128) hz]

/-- The first point: the block is reset to the zero splat, read back, and the point's contribution added to it; the
    later of the two stores covers the block. -/
theorem out_A (c : Dev nD) (i : grid1.Coords) (a1 : Memref sig .tc .vmem S4000x42 .f32) (h1 : a1.IsWhole)
    (a2 : Memref sig .tc .vmem S4000x128 .f32) (h2 : a2.IsWhole) (a3 : Memref sig .tc .vmem S42x8 .f32) (h3 : a3.IsWhole)
    (a4 : Memref sig .tc .vmem S8x128 .f32) (h4 : a4.IsWhole) (a5 : Memref sig .tc .vmem S1x128 .f32) (h5 : a5.IsWhole)
    (hc : cond1_0 i) (x0 : Vec F S4000x42 .f32) (x1 : Vec F S4000x128 .f32) (x2 : Vec F S42x8 .f32)
    (x3 : Vec F S8x128 .f32) :
    out1_A_4 c i a1 h1 a2 h2 a3 h3 a4 h4 a5 h5 hc x0 x1 x2 x3 = k1_pay2 x0 x2 x3 x1 (k1_pay1 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S4000x42) hz, View.ld_unit_zero (S := S4000x128) hz, View.ld_unit_zero (S := S42x8) hz,
    View.ld_unit_zero (S := S8x128) hz]
end Pieces

section Payload

/-- The two products' dimension records are the plain rows-by-columns one. -/
theorem dot1_plain : dot_S4000x42_S42x8_S4000x8_1_0_0_1_n_n = DotDims.plain 4000 42 8 := rfl
theorem dot2_plain : dot_S4000x8_S8x128_S4000x128_1_0_0_1_n_n = DotDims.plain 4000 8 128 := rfl

/-- A product of two narrowed operands accumulated into the zero splat: over the extended reals narrowing is the
    identity, and 0 + x = x, so it is the matrix product. -/
theorem matmul_trunc_eq_mm {m k n : Nat} (A : Mat m k) (B : Mat k n) (h : FTy.bf16.bits < FTy.f32.bits) :
    matmul (F := Ideal) (DotDims.plain m k n) none (truncf .bf16 A h) (truncf .bf16 B h)
      (constant (⟨2, ![m, n]⟩ : Shape) .f32 0x00000000#32) = mm A B := by
  funext i
  obtain ⟨a, b, rfl⟩ : ∃ (a : Fin m) (b : Fin n), i = ix2 a b := ⟨i 0, i 1, eq_ix2 i⟩
  refine (congrFun (matmul_zero_eq_dotGeneral (DotDims.plain m k n) none (truncf .bf16 A h) (truncf .bf16 B h)) (ix2 a b)).trans ?_
  exact StackMember.dotGeneral_plain_apply none (truncf .bf16 A h) (truncf .bf16 B h) a b

theorem pay2_eq (S : Mat 4000 42) (W1 : Mat 42 8) (W2 : Mat 8 128) (T : Mat 4000 128) (acc : Mat 1 128) :
    k1_pay2 (F := Ideal) S W1 W2 T acc
      = addf acc (shapeCast S1x128 (multiReduction (F := Ideal) .add [0] S128 (mulf (Cert.Spec.emb S W1 W2) T)
          0x00000000#32 reduces_S4000x128_S128 (.inl rfl) rfl) shapeCasts_S128_S1x128) := by
  unfold k1_pay2
  simp only [shapeCast_self]
  have e1 : matmul (F := Ideal) dot_S4000x42_S42x8_S4000x8_1_0_0_1_n_n none (truncf FTy.bf16 S bitsLt_bf16_f32)
      (truncf FTy.bf16 W1 bitsLt_bf16_f32) (constant S4000x8 FTy.f32 0x00000000#32) = mm S W1 :=
    matmul_trunc_eq_mm S W1 bitsLt_bf16_f32
  rw [e1]
  have e2 : mulf (mm S W1) (logistic (mm S W1)) = Cert.Spec.siluM (mm S W1) := rfl
  rw [e2]
  have e3 : matmul (F := Ideal) dot_S4000x8_S8x128_S4000x128_1_0_0_1_n_n none
      (truncf FTy.bf16 (Cert.Spec.siluM (mm S W1)) bitsLt_bf16_f32)
      (truncf FTy.bf16 W2 bitsLt_bf16_f32) (constant S4000x128 FTy.f32 0x00000000#32) = mm (Cert.Spec.siluM (mm S W1)) W2 :=
    matmul_trunc_eq_mm (Cert.Spec.siluM (mm S W1)) W2 bitsLt_bf16_f32
  rw [e3]
  rfl

/-- Row r of the lane reduction's source over the reduced index q is (r, q). -/
theorem lift_col (r : Fin 4000) (q : Fin 128) :
    reduces_S4000x128_S128.lift (ix1 q) (⟨r.val, r.isLt⟩ : Fin (S4000x128.size 0)) = ix2 r q := by
  funext c; apply Fin.ext
  fin_cases c <;> rfl

/-- The contribution of one grid point, entry by entry: the accumulator's entry plus the column sum, over the
    block's 4000 rows, of embedding times gathered value. -/
theorem pay2_apply (S : Mat 4000 42) (W1 : Mat 42 8) (W2 : Mat 8 128) (T : Mat 4000 128) (acc : Mat 1 128)
    (u : Fin 1) (q : Fin 128) :
    k1_pay2 (F := Ideal) S W1 W2 T acc (ix2 u q)
      = acc (ix2 u q) + ∑ r : Fin 4000, Cert.Spec.emb S W1 W2 (ix2 r q) * T (ix2 r q) := by
  rw [pay2_eq]
  show acc (ix2 u q) + shapeCast S1x128 (multiReduction (F := Ideal) .add [0] S128 (mulf (Cert.Spec.emb S W1 W2) T)
          0x00000000#32 reduces_S4000x128_S128 (.inl rfl) rfl) shapeCasts_S128_S1x128 (ix2 u q) = _
  refine congrArg (acc (ix2 u q) + ·) ?_
  refine (shapeCast_a_1a_apply _ shapeCasts_S128_S1x128 u q).trans ?_
  refine (Ideal.multiReduction_add_single (mulf (Cert.Spec.emb S W1 W2) T) 0x00000000#32 reduces_S4000x128_S128
    (.inl rfl) rfl (ix1 q)).trans ?_
  show ∑ k : Fin 4000, mulf (Cert.Spec.emb S W1 W2) T (reduces_S4000x128_S128.lift (ix1 q) k) = _
  exact Finset.sum_congr rfl fun r _ => congrArg (mulf (Cert.Spec.emb S W1 W2) T) (lift_col r q)
end Payload

variable (V : (c : Dev nD) → (b : Ref sig .tc) → Buf (Elt Ideal) ((c : Thread nD τ).loc b))

section Blocks

/-- The region's arrays as it finds them, at their literal types: the basis values (1000000 × 42), the gathered
    node values (1000000 × 128), and the two transposed weights. -/
abbrev Sarr (c : Dev nD) : Mat 1000000 42 := V c main_arg2
abbrev Tarr (c : Dev nD) : Mat 1000000 128 := V c main_v19
abbrev W1arr (c : Dev nD) : Mat 42 8 := V c main_v6
abbrev W2arr (c : Dev nD) : Mat 8 128 := V c main_v7

/-- The four input blocks at grid point t, at their literal types. -/
abbrev sblk (c : Dev nD) (t : Fin cfg1.N) : Mat 4000 42 := iblk1 (F := Ideal) V c 0 t
abbrev tblk (c : Dev nD) (t : Fin cfg1.N) : Mat 4000 128 := iblk1 (F := Ideal) V c 1 t
abbrev w1blk (c : Dev nD) (t : Fin cfg1.N) : Mat 42 8 := iblk1 (F := Ideal) V c 2 t
abbrev w2blk (c : Dev nD) (t : Fin cfg1.N) : Mat 8 128 := iblk1 (F := Ideal) V c 3 t

/-- The block indices over the grid: the two row-blocked windows move with the point, the weights' and the
    accumulator's stay at (0, 0). -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = t.val ∧ win1_1.index t 1 = 0 :=
  (by decide +kernel : ∀ t : Fin grid1.N, win1_1.index t 0 = t.val ∧ win1_1.index t 1 = 0)
theorem index1_2 : ∀ t : Fin cfg1.N, win1_2.index t 0 = 0 ∧ win1_2.index t 1 = 0 :=
  (by decide +kernel : ∀ t : Fin grid1.N, win1_2.index t 0 = 0 ∧ win1_2.index t 1 = 0)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = 0 ∧ win1_4.index t 1 = 0 :=
  (by decide +kernel : ∀ t : Fin grid1.N, win1_4.index t 0 = 0 ∧ win1_4.index t 1 = 0)

/-- Row r of the basis block at point t is row 4000·t + r of the basis array. -/
theorem sblk_apply (c : Dev nD) (t : Fin cfg1.N) (r : Fin 4000) (k : Fin 42) (hr : t.val * 4000 + r.val < 1000000) :
    sblk V c t (ix2 r k) = Sarr V c (ix2 (⟨t.val * 4000 + r.val, hr⟩ : Fin 1000000) k) := by
  have hi := index1_0 t
  show iblk1 (F := Ideal) V c 0 t (ix2 r k) = _
  unfold iblk1
  rw [View.read_apply]
  show V c main_arg2 _ = V c main_arg2 _
  congr 1
  funext a
  apply Fin.ext
  match a with
  | ⟨0, _⟩ => show win1_0.index t 0 * 4000 + 1 * r.val = t.val * 4000 + r.val; rw [hi.1]; omega
  | ⟨1, _⟩ => show win1_0.index t 1 * 42 + 1 * k.val = k.val; rw [hi.2]; omega

/-- Row r of the gathered block at point t is row 4000·t + r of the gathered array. -/
theorem tblk_apply (c : Dev nD) (t : Fin cfg1.N) (r : Fin 4000) (q : Fin 128) (hr : t.val * 4000 + r.val < 1000000) :
    tblk V c t (ix2 r q) = Tarr V c (ix2 (⟨t.val * 4000 + r.val, hr⟩ : Fin 1000000) q) := by
  have hi := index1_1 t
  show iblk1 (F := Ideal) V c 1 t (ix2 r q) = _
  unfold iblk1
  rw [View.read_apply]
  show V c main_v19 _ = V c main_v19 _
  congr 1
  funext a
  apply Fin.ext
  match a with
  | ⟨0, _⟩ => show win1_1.index t 0 * 4000 + 1 * r.val = t.val * 4000 + r.val; rw [hi.1]; omega
  | ⟨1, _⟩ => show win1_1.index t 1 * 128 + 1 * q.val = q.val; rw [hi.2]; omega

/-- The weights' blocks are the whole weight arrays at every point. -/
theorem w1blk_eq (c : Dev nD) (t : Fin cfg1.N) : w1blk V c t = W1arr V c := by
  have hi := index1_2 t
  funext j
  obtain ⟨p, q, rfl⟩ : ∃ (p : Fin 42) (q : Fin 8), j = ix2 p q := ⟨j 0, j 1, eq_ix2 j⟩
  show iblk1 (F := Ideal) V c 2 t (ix2 p q) = _
  unfold iblk1
  rw [View.read_apply]
  show V c main_v6 _ = V c main_v6 _
  congr 1
  funext a
  apply Fin.ext
  match a with
  | ⟨0, _⟩ => show win1_2.index t 0 * 42 + 1 * p.val = p.val; rw [hi.1]; omega
  | ⟨1, _⟩ => show win1_2.index t 1 * 8 + 1 * q.val = q.val; rw [hi.2]; omega

theorem w2blk_eq (c : Dev nD) (t : Fin cfg1.N) : w2blk V c t = W2arr V c := by
  have hi := index1_3 t
  funext j
  obtain ⟨p, q, rfl⟩ : ∃ (p : Fin 8) (q : Fin 128), j = ix2 p q := ⟨j 0, j 1, eq_ix2 j⟩
  show iblk1 (F := Ideal) V c 3 t (ix2 p q) = _
  unfold iblk1
  rw [View.read_apply]
  show V c main_v7 _ = V c main_v7 _
  congr 1
  funext a
  apply Fin.ext
  match a with
  | ⟨0, _⟩ => show win1_3.index t 0 * 8 + 1 * p.val = p.val; rw [hi.1]; omega
  | ⟨1, _⟩ => show win1_3.index t 1 * 128 + 1 * q.val = q.val; rw [hi.2]; omega

end Blocks

section Invariant

theorem N250 : cfg1.N = 250 := N_1

/-- One row's term of the column sum, at column q: the embedding entry times the gathered entry. -/
def term (c : Dev nD) (q : Fin 128) (i : Fin 1000000) : EReal :=
  Cert.Spec.emb (Sarr V c) (W1arr V c) (W2arr V c) (ix2 i q) * Tarr V c (ix2 i q)

/-- The sum of the terms of tile k: rows 4000·k … 4000·k + 3999. -/
def tile (c : Dev nD) (q : Fin 128) (k : Fin 250) : EReal :=
  ∑ r : Fin 4000, term V c q ⟨k.val * 4000 + r.val, Cert.LibTileSums.tile_lt (A := 250) (B := 4000) rfl k r⟩

/-- What grid point t adds at column q is tile t: the weights' blocks are the weights, row r of each row block is
    row 4000·t + r of its array, and the embedding is row-local. -/
theorem contrib (c : Dev nD) (t : Fin cfg1.N) (q : Fin 128) :
    ∑ r : Fin 4000, Cert.Spec.emb (sblk V c t) (w1blk V c t) (w2blk V c t) (ix2 r q) * tblk V c t (ix2 r q)
      = tile V c q ⟨t.val, lt_of_lt_of_eq t.isLt N250⟩ := by
  rw [w1blk_eq, w2blk_eq]
  refine Finset.sum_congr rfl fun r _ => ?_
  have hr : t.val * 4000 + r.val < 1000000 :=
    Cert.LibTileSums.tile_lt (A := 250) (B := 4000) rfl ⟨t.val, lt_of_lt_of_eq t.isLt N250⟩ r
  show _ = Cert.Spec.emb (Sarr V c) (W1arr V c) (W2arr V c) (ix2 (⟨t.val * 4000 + r.val, hr⟩ : Fin 1000000) q)
    * Tarr V c (ix2 (⟨t.val * 4000 + r.val, hr⟩ : Fin 1000000) q)
  rw [Cert.Spec.emb_rows (sblk V c t) (Sarr V c) (W1arr V c) (W2arr V c) r (⟨t.val * 4000 + r.val, hr⟩ : Fin 1000000)
    (fun k => sblk_apply V c t r k hr) q, tblk_apply V c t r q hr]

/-- At the first point the accumulator row holds 0 plus the point's tile. -/
theorem point_A (c : Dev nD) (t : Fin cfg1.N) (h0 : t.val % 250 = 0) (u : Fin 1) (q : Fin 128) :
    (outsAt1 (F := Ideal) V c t.val t.isLt : Mat 1 128) (ix2 u q)
      = 0 + tile V c q ⟨t.val, lt_of_lt_of_eq t.isLt N250⟩ := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (iblk1 V c 0 t) (iblk1 V c 1 t) (iblk1 V c 2 t)
    (iblk1 V c 3 t)) (ix2 u q)).trans ?_
  refine (pay2_apply (sblk V c t) (w1blk V c t) (w2blk V c t) (tblk V c t) (k1_pay1 (F := Ideal)) u q).trans ?_
  rw [contrib V c t q]
  refine congrArg (· + tile V c q ⟨t.val, lt_of_lt_of_eq t.isLt N250⟩) ?_
  show Ideal.ofBits .f32 0x00000000#32 = 0
  exact Ideal.ofBits_zero_f32

/-- At every later point it holds what the point before left plus the point's tile. -/
theorem point_B (c : Dev nD) (t : Fin cfg1.N) (h0 : ¬t.val % 250 = 0) (u : Fin 1) (q : Fin 128) :
    (outsAt1 (F := Ideal) V c t.val t.isLt : Mat 1 128) (ix2 u q)
      = (outsAt1 (F := Ideal) V c (t.val - 1) (Nat.lt_of_le_of_lt (Nat.sub_le _ _) t.isLt) : Mat 1 128) (ix2 u q)
        + tile V c q ⟨t.val, lt_of_lt_of_eq t.isLt N250⟩ := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (iblk1 V c 0 t) (iblk1 V c 1 t)
    (iblk1 V c 2 t) (iblk1 V c 3 t)
    (outsAt1 (F := Ideal) V c (t.val - 1) (Nat.lt_of_le_of_lt (Nat.sub_le _ _) t.isLt))) (ix2 u q)).trans ?_
  refine (pay2_apply (sblk V c t) (w1blk V c t) (w2blk V c t) (tblk V c t)
    (outsAt1 (F := Ideal) V c (t.val - 1) (Nat.lt_of_le_of_lt (Nat.sub_le _ _) t.isLt)) u q).trans ?_
  rw [contrib V c t q]

/-- The accumulator's contents after a point depend on the point's number only. -/
theorem outsAt_congr (c : Dev nD) {a b : ℕ} (h : a = b) (ha : a < cfg1.N) (hb : b < cfg1.N) :
    outsAt1 (F := Ideal) V c a ha = outsAt1 (F := Ideal) V c b hb := by
  subst h; rfl

/-- After the last point the accumulator row holds the sum of all 250 tiles: the running sum, by the recursion
    0 + s 0, then + s (k + 1). -/
theorem outsAt_last (c : Dev nD) (u : Fin 1) (q : Fin 128) (h249 : 249 < cfg1.N) :
    (outsAt1 (F := Ideal) V c 249 h249 : Mat 1 128) (ix2 u q) = ∑ k : Fin 250, tile V c q k := by
  have key := Cert.LibTileSums.fold_fin_eq_sum (m := 249) (fun k => tile V c q k)
    (fun k => (outsAt1 (F := Ideal) V c k.val (lt_of_lt_of_eq k.isLt N250.symm) : Mat 1 128) (ix2 u q))
    (point_A V c ⟨0, lt_of_lt_of_eq (by decide : 0 < 250) N250.symm⟩ rfl u q)
    (fun j => by
      have hj : j.val + 1 < cfg1.N := by rw [N250]; have := j.isLt; omega
      have hB : ¬(⟨j.val + 1, hj⟩ : Fin cfg1.N).val % 250 = 0 := by dsimp only; have := j.isLt; omega
      have hp := point_B V c ⟨j.val + 1, hj⟩ hB u q
      have e := outsAt_congr V c (Nat.add_sub_cancel j.val 1) (Nat.lt_of_le_of_lt (Nat.sub_le _ _) hj)
        (lt_of_lt_of_eq j.castSucc.isLt N250.symm)
      exact hp.trans (congrArg (fun X : Mat 1 128 => X (ix2 u q) + tile V c q j.succ) e))
  exact key

end Invariant

section Final

/-- The last grid point. -/
abbrev tlast : Fin cfg1.N := ⟨249, lt_of_lt_of_eq (by decide : 249 < 250) N250.symm⟩

/-- What the accumulator block holds after the last point, as contents of the result array (its one block is the
    whole [1, 128] array). -/
def result (c : Dev nD) : Buf (Elt Ideal) ((c : Thread nD τ).loc main_v20) :=
  outsAt1 (F := Ideal) V c 249 (lt_of_lt_of_eq (by decide : 249 < 250) N250.symm)

theorem result_def (c : Dev nD) :
    result V c = outsAt1 (F := Ideal) V c 249 (lt_of_lt_of_eq (by decide : 249 < 250) N250.symm) := rfl

/-- The accumulator's block offsets are (0, 0) at every point. -/
theorem off4_zero (t : Fin cfg1.N) : (fun a => win1_4.index t a * main_v20.ty.shape.size a) = fun _ => 0 := by
  have hi := index1_4 t
  funext a
  match a with
  | ⟨0, _⟩ => show win1_4.index t 0 * _ = 0; rw [hi.1, Nat.zero_mul]
  | ⟨1, _⟩ => show win1_4.index t 1 * _ = 0; rw [hi.2, Nat.zero_mul]

/-- Block (0, 0) of the [1, 128] array, read through zero offsets, is the array: for any contents R. -/
theorem read_blk4 (c : Dev nD) (t : Fin cfg1.N) (R : Buf (Elt Ideal) ((c : Thread nD τ).loc main_v20)) :
    (cfg1.win 4).cut (grid1.coords t) R = ((cfg1.win 4).blk t).view.read (Elt Ideal) R := by
  have hz' := off4_zero t
  exact (Memref.read_access_unit_zero (Elt Ideal) main_v20 hz' (fun a => by rw [congrFun hz' a]; simp) R).symm

/-- The one write-back, after the last point, writes the accumulator block of the last point. -/
theorem flushed_eq (c : Dev nD) (t : Fin cfg1.N) (hf : (cfg1.win 4).flush t = true) :
    (dat1 (F := Ideal) V c).flushed 4 t = ((cfg1.win 4).blk t).view.read (Elt Ideal) (result V c) := by
  have hN : cfg1.N = 250 := N250
  have h249 : t.val = 249 := by have := (flush1_4 t).mp hf; have := t.isLt; omega
  show (cfg1.win 4).cut (grid1.coords t) ((dat1 (F := Ideal) V c).after 4 t) = _
  rw [after1_4, outsAt_congr V c h249 t.isLt (lt_of_lt_of_eq (by decide : 249 < 250) N250.symm), ← result_def V c]
  exact read_blk4 c t (result V c)

/-- So the result array ends holding that block: the last point's block covers the array. -/
theorem final_arr (c : Dev nD) : (dat1 (F := Ideal) V c).arrAt 4 cfg1.N = result V c :=
  (dat1 (F := Ideal) V c).arrAt_eq_of_cover 4 (result V c) (flushed_eq V c) fun i =>
    ⟨tlast, (flush1_4 tlast).mpr rfl, by
      show i ∈ ((View.whole main_v20).slice (win1_4.rect tlast)).set
      rw [View.set_slice_whole]
      exact View.mem_set_unit_zero (off4_zero tlast) _ i⟩

end Final

/-- The second region's result: the column sums over all 1000000 triplets of sbf_emb ⊙ t_gathered, as one row. -/
theorem extra_arr (c : Dev nD) :
    ((dat1 (F := Ideal) V c).arrAt 4 cfg1.N : Mat 1 128)
      = Cert.Spec.colSumProd (Cert.Spec.emb (V c main_arg2 : Mat 1000000 42) (V c main_v6 : Mat 42 8) (V c main_v7 : Mat 8 128))
          (V c main_v19 : Mat 1000000 128) := by
  rw [final_arr V c]
  funext i
  obtain ⟨u, q, rfl⟩ : ∃ (u : Fin 1) (q : Fin 128), i = ix2 u q := ⟨i 0, i 1, eq_ix2 i⟩
  rw [Cert.Spec.colSumProd_apply]
  refine (congrFun (result_def V c) (ix2 u q)).trans ?_
  refine (outsAt_last V c u q (lt_of_lt_of_eq (by decide : 249 < 250) N250.symm)).trans ?_
  exact Cert.LibTileSums.sum_tiles (A := 250) (B := 4000) rfl (term V c q)

end Cert.KernelIdeal.Region1
end
-- ==== Proof.Region2.lean ====
import proofs.«426307_j3822520894068_1_alg».proof.Proof.Gen.KernelIdeal.Frame
import proofs.«426307_j3822520894068_1_alg».proof.Proof.Spec

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen DenseRows

variable (V : (c : Dev nD) → (b : Ref sig .tc) → Buf (Elt Ideal) ((c : Thread nD τ).loc b))

/-! ## One block of 4000 edges

  Over the extended reals the narrowing of an operand to the shorter float format is the identity, a product accumulated
  into the zero matrix is the matrix product, z·σ(z) is the gate, and a one-row value broadcast down the rows and added is
  the row added to every row. So the value the body stores is G ⊙ silu(S·W₁ᵗ)·W₂ᵗ + (the extra row), on the block's rows. -/

/-- The zero offsets of a whole-block access, as the constant function. -/
theorem zeroOff : (![0, 0] : Fin 2 → Nat) = fun _ => 0 := funext fun a => by fin_cases a <;> rfl

/-- The first product: (4000 × 6) by (6 × 8), the narrowed operands read as they are. -/
theorem mmA (x0 : Mat 4000 6) (x1 : Mat 6 8) :
    matmul dot_S4000x6_S6x8_S4000x8_1_0_0_1_n_n none (truncf FTy.bf16 x0 bitsLt_bf16_f32)
      (truncf FTy.bf16 x1 bitsLt_bf16_f32) (constant S4000x8 FTy.f32 0x00000000#32) = mm x0 x1 :=
  matmul_plain_eq_mm none x0 x1

/-- The second product: (4000 × 8) by (8 × 128), the narrowed operands read as they are. -/
theorem mmB (z : Mat 4000 8) (x2 : Mat 8 128) :
    matmul dot_S4000x8_S8x128_S4000x128_1_0_0_1_n_n none (truncf FTy.bf16 z bitsLt_bf16_f32)
      (truncf FTy.bf16 x2 bitsLt_bf16_f32) (constant S4000x128 FTy.f32 0x00000000#32) = mm z x2 :=
  matmul_plain_eq_mm none z x2

/-- The stored value, from the five loaded blocks: the edge message of the block's rows. -/
theorem pay_eq (x0 : Vec Ideal S4000x6 .f32) (x1 : Vec Ideal S6x8 .f32) (x2 : Vec Ideal S8x128 .f32)
    (x3 : Vec Ideal S4000x128 .f32) (x4 : Vec Ideal S1x128 .f32) :
    k2_pay1 x0 x1 x2 x3 x4 = Cert.Spec.edge x3 (Cert.Spec.emb x0 x1 x2) x4 := by
  unfold k2_pay1
  simp only [shapeCast_self]
  rw [mmA x0 x1]
  rw [show mulf (mm (x0 : Mat 4000 6) (x1 : Mat 6 8)) (logistic (mm (x0 : Mat 4000 6) (x1 : Mat 6 8)))
    = Cert.Spec.siluM (mm (x0 : Mat 4000 6) (x1 : Mat 6 8)) from rfl]
  rw [mmB _ x2]
  exact bias_vector_form (Cert.Spec.mulM (x3 : Mat 4000 128) (Cert.Spec.emb (x0 : Mat 4000 6) (x1 : Mat 6 8) (x2 : Mat 8 128)))
    (x4 : Mat 1 128) broadcasts_S1x128_S4000x128

/-- What the body leaves in the result's block: one store over the whole block, of the value above, the loads over
    the whole blocks. -/
theorem block_eq (x0 : Vec Ideal S4000x6 .f32) (x1 : Vec Ideal S6x8 .f32) (x2 : Vec Ideal S8x128 .f32)
    (x3 : Vec Ideal S4000x128 .f32) (x4 : Vec Ideal S1x128 .f32) :
    out2_5 x0 x1 x2 x3 x4 = Cert.Spec.edge x3 (Cert.Spec.emb x0 x1 x2) x4 := by
  unfold out2_5
  rw [View.canon_unit_zero zeroOff]
  simp only [View.ld_unit_zero (S := S4000x6) zeroOff, View.ld_unit_zero (S := S6x8) zeroOff, View.ld_unit_zero (S := S8x128) zeroOff,
    View.ld_unit_zero (S := S4000x128) zeroOff, View.ld_unit_zero (S := S1x128) zeroOff]
  exact pay_eq x0 x1 x2 x3 x4

/-! ## Where each block sits in its array -/

/-- The grid has 400 points. -/
theorem points : cfg2.N = 400 := by decide +kernel

/-- The index maps, decided over the grid: the two long operands' windows and the result's window sit at block row t at
    point t, column block 0; the three small windows sit at block (0, 0) at every point. -/
theorem idx_facts : ∀ t : Fin cfg2.N,
    win2_0.index t (0 : Fin 2) = t.val ∧ win2_0.index t (1 : Fin 2) = 0
    ∧ win2_3.index t (0 : Fin 2) = t.val ∧ win2_3.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = 0 ∧ win2_4.index t (1 : Fin 2) = 0 :=
  (by decide +kernel : ∀ t : Fin grid2.N, _)

/-- Window 0's block at point t is rows 4000·t … 4000·t + 3999 of the edge-feature array. -/
theorem rbf_block (c : Dev nD) (t : Fin cfg2.N) (p : Fin 4000) (k : Fin 6) (P : Fin 1600000) (hP : P.val = 4000 * t.val + p.val) :
    (iblk2 (F := Ideal) V c 0 t : Mat 4000 6) (ix2 p k) = (V c main_arg1 : Mat 1600000 6) (ix2 P k) := by
  obtain ⟨e0, e1, -⟩ := idx_facts t
  unfold iblk2
  rw [View.read_apply]
  show V c main_arg1 _ = V c main_arg1 _
  congr 1
  funext a
  apply Fin.ext
  match a with
  | ⟨0, _⟩ => show win2_0.index t (0 : Fin 2) * 4000 + 1 * p.val = P.val; rw [e0, hP]; omega
  | ⟨1, _⟩ => show win2_0.index t (1 : Fin 2) * 6 + 1 * k.val = k.val; rw [e1]; omega

/-- Window 3's block at point t is rows 4000·t … 4000·t + 3999 of the gathered array. -/
theorem gathered_block (c : Dev nD) (t : Fin cfg2.N) (p : Fin 4000) (k : Fin 128) (P : Fin 1600000) (hP : P.val = 4000 * t.val + p.val) :
    (iblk2 (F := Ideal) V c 3 t : Mat 4000 128) (ix2 p k) = (V c main_v18 : Mat 1600000 128) (ix2 P k) := by
  obtain ⟨-, -, e0, e1, -⟩ := idx_facts t
  unfold iblk2
  rw [View.read_apply]
  show V c main_v18 _ = V c main_v18 _
  congr 1
  funext a
  apply Fin.ext
  match a with
  | ⟨0, _⟩ => show win2_3.index t (0 : Fin 2) * 4000 + 1 * p.val = P.val; rw [e0, hP]; omega
  | ⟨1, _⟩ => show win2_3.index t (1 : Fin 2) * 128 + 1 * k.val = k.val; rw [e1]; omega

/-- Window 1 holds the whole first weight at every point. -/
theorem w1_block (c : Dev nD) (t : Fin cfg2.N) : (iblk2 (F := Ideal) V c 1 t : Mat 6 8) = (V c main_v4 : Mat 6 8) := by
  obtain ⟨-, -, -, -, -, -, e0, e1, -⟩ := idx_facts t
  funext j
  obtain ⟨p, q, rfl⟩ : ∃ (p : Fin 6) (q : Fin 8), j = ix2 p q := ⟨j 0, j 1, eq_ix2 j⟩
  unfold iblk2
  rw [View.read_apply]
  show V c main_v4 _ = V c main_v4 _
  congr 1
  funext a
  apply Fin.ext
  match a with
  | ⟨0, _⟩ => show win2_1.index t (0 : Fin 2) * 6 + 1 * p.val = p.val; rw [e0]; omega
  | ⟨1, _⟩ => show win2_1.index t (1 : Fin 2) * 8 + 1 * q.val = q.val; rw [e1]; omega

/-- Window 2 holds the whole second weight at every point. -/
theorem w2_block (c : Dev nD) (t : Fin cfg2.N) : (iblk2 (F := Ideal) V c 2 t : Mat 8 128) = (V c main_v5 : Mat 8 128) := by
  obtain ⟨-, -, -, -, -, -, -, -, e0, e1, -⟩ := idx_facts t
  funext j
  obtain ⟨p, q, rfl⟩ : ∃ (p : Fin 8) (q : Fin 128), j = ix2 p q := ⟨j 0, j 1, eq_ix2 j⟩
  unfold iblk2
  rw [View.read_apply]
  show V c main_v5 _ = V c main_v5 _
  congr 1
  funext a
  apply Fin.ext
  match a with
  | ⟨0, _⟩ => show win2_2.index t (0 : Fin 2) * 8 + 1 * p.val = p.val; rw [e0]; omega
  | ⟨1, _⟩ => show win2_2.index t (1 : Fin 2) * 128 + 1 * q.val = q.val; rw [e1]; omega

/-- Window 4 holds the whole added row at every point. -/
theorem w4_block (c : Dev nD) (t : Fin cfg2.N) : (iblk2 (F := Ideal) V c 4 t : Mat 1 128) = (V c main_v20 : Mat 1 128) := by
  obtain ⟨-, -, -, -, -, -, -, -, -, -, e0, e1⟩ := idx_facts t
  funext j
  obtain ⟨p, q, rfl⟩ : ∃ (p : Fin 1) (q : Fin 128), j = ix2 p q := ⟨j 0, j 1, eq_ix2 j⟩
  unfold iblk2
  rw [View.read_apply]
  show V c main_v20 _ = V c main_v20 _
  congr 1
  funext a
  apply Fin.ext
  match a with
  | ⟨0, _⟩ => show win2_4.index t (0 : Fin 2) * 1 + 1 * p.val = p.val; rw [e0]; omega
  | ⟨1, _⟩ => show win2_4.index t (1 : Fin 2) * 128 + 1 * q.val = q.val; rw [e1]; omega

/-! ## From the blocks to the array -/

/-- Row-locality of the edge message: row p of the message computed from a band of rows, whose row p is row P of the two
    long operands, is row P of the message computed from the whole operands. -/
theorem edge_of_rows (A0 : Mat 1600000 6) (A3 : Mat 1600000 128) (w1 : Mat 6 8) (w2 : Mat 8 128) (w4 : Mat 1 128)
    (X0 : Mat 4000 6) (X3 : Mat 4000 128) (p : Fin 4000) (P : Fin 1600000)
    (h0 : ∀ k, X0 (ix2 p k) = A0 (ix2 P k)) (h3 : ∀ k, X3 (ix2 p k) = A3 (ix2 P k)) (q : Fin 128) :
    Cert.Spec.edge X3 (Cert.Spec.emb X0 w1 w2) w4 (ix2 p q) = Cert.Spec.edge A3 (Cert.Spec.emb A0 w1 w2) w4 (ix2 P q) :=
  Cert.Spec.edge_rows X3 (Cert.Spec.emb X0 w1 w2) A3 (Cert.Spec.emb A0 w1 w2) w4 p P h3
    (fun k => Cert.Spec.emb_rows X0 A0 w1 w2 p P h0 k) q

/-- The edge message over all 1600000 edges, from the arrays as the region finds them. -/
abbrev edgeArr (c : Dev nD) : Mat 1600000 128 :=
  Cert.Spec.edge (V c main_v18 : Mat 1600000 128)
    (Cert.Spec.emb (V c main_arg1 : Mat 1600000 6) (V c main_v4 : Mat 6 8) (V c main_v5 : Mat 8 128)) (V c main_v20 : Mat 1 128)

/-- What point t writes back is rows 4000·t … 4000·t + 3999 of the edge message. -/
theorem wb_eq (c : Dev nD) (t : Fin cfg2.N) :
    (dat2 (F := Ideal) V c).flushed 5 t = ((cfg2.win 5).blk t).view.read (Elt Ideal) (edgeArr V c) := by
  show (cfg2.win 5).cut (grid2.coords t) ((dat2 V c).after 5 t) = _
  rw [after2_5, block_eq, w1_block, w2_block, w4_block]
  obtain ⟨-, -, -, -, e0, e1, -⟩ := idx_facts t
  have ht : t.val < 400 := lt_of_lt_of_eq t.isLt points
  funext j
  obtain ⟨p, q, rfl⟩ : ∃ (p : Fin 4000) (q : Fin 128), j = ix2 p q := ⟨j 0, j 1, eq_ix2 j⟩
  rw [View.read_apply]
  have hemb : ((cfg2.win 5).blk t).view.emb (ix2 p q) = ix2 (⟨4000 * t.val + p.val, by have := p.isLt; omega⟩ : Fin 1600000) q := by
    funext a
    apply Fin.ext
    match a with
    | ⟨0, _⟩ => show win2_5.index t (0 : Fin 2) * 4000 + 1 * p.val = 4000 * t.val + p.val; rw [e0]; omega
    | ⟨1, _⟩ => show win2_5.index t (1 : Fin 2) * 128 + 1 * q.val = q.val; rw [e1]; omega
  rw [hemb]
  exact edge_of_rows (V c main_arg1) (V c main_v18) (V c main_v4) (V c main_v5) (V c main_v20) (iblk2 V c 0 t) (iblk2 V c 3 t) p
    ⟨4000 * t.val + p.val, by have := p.isLt; omega⟩ (fun k => rbf_block V c t p k _ rfl) (fun k => gathered_block V c t p k _ rfl) q

/-- An index of the result array is in point t's block iff each coordinate is in the block's range on its axis. -/
theorem mem_blk (t : Fin cfg2.N) (i : S1600000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v21).slice (win2_5.rect t)).set ↔ _
  rw [View.set_slice_whole, Rect.mem_set_unit]
  exact Iff.rfl

/-- Row r lies in the block of point r / 4000, and every point writes back: the blocks cover the result array. -/
theorem covered (i : S1600000x128.Idx) :
    ∃ t : Fin cfg2.N, (cfg2.win 5).flush t = true ∧ i ∈ ((cfg2.win 5).blk t).view.set := by
  have hi0 : (i 0).val < 1600000 := (i 0).isLt
  have hi1 : (i 1).val < 128 := (i 1).isLt
  have hN : (i 0).val / 4000 < cfg2.N := by rw [points]; omega
  refine ⟨⟨(i 0).val / 4000, hN⟩, flush2_5 _, ?_⟩
  obtain ⟨-, -, -, -, e0, e1, -⟩ := idx_facts ⟨(i 0).val / 4000, hN⟩
  rw [mem_blk]
  intro a
  match a with
  | ⟨0, _⟩ =>
    show win2_5.index ⟨(i 0).val / 4000, hN⟩ (0 : Fin 2) * 4000 ≤ (i 0).val ∧ (i 0).val < win2_5.index ⟨(i 0).val / 4000, hN⟩ (0 : Fin 2) * 4000 + 4000
    rw [e0]
    show (i 0).val / 4000 * 4000 ≤ (i 0).val ∧ (i 0).val < (i 0).val / 4000 * 4000 + 4000
    omega
  | ⟨1, _⟩ =>
    show win2_5.index ⟨(i 0).val / 4000, hN⟩ (1 : Fin 2) * 128 ≤ (i 1).val ∧ (i 1).val < win2_5.index ⟨(i 0).val / 4000, hN⟩ (1 : Fin 2) * 128 + 128
    rw [e1]
    omega

/-- The third region's result: x_edge = x_up_gathered ⊙ rbf_emb + extra over all 1600000 edges. -/
theorem edge_arr (c : Dev nD) :
    ((dat2 (F := Ideal) V c).arrAt 5 cfg2.N : Mat 1600000 128)
      = Cert.Spec.edge (V c main_v18 : Mat 1600000 128)
          (Cert.Spec.emb (V c main_arg1 : Mat 1600000 6) (V c main_v4 : Mat 6 8) (V c main_v5 : Mat 8 128)) (V c main_v20 : Mat 1 128) :=
  (dat2 (F := Ideal) V c).arrAt_eq_of_cover 5 (edgeArr V c) (fun t _ => wb_eq V c t) covered

end Cert.KernelIdeal.Region2

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.Take.lean ====
/-
  Taking rows of a 100000-row table by a vector of index words, with the out-of-range rows replaced by a fill value,
  is the plain row gather when every index word lies in [0, 100000): the negative-index wrap leaves such a word alone,
  the in-range test holds in every row, and the fill is never chosen. And the two index conjuncts of the precondition
  say exactly that of row 0 of the edge-index array and of column 1 of the triplet array.
-/
import proofs.«426307_j3822520894068_1_alg».proof.Proof.Gen.Pre_finite_inputs
import proofs.«426307_j3822520894068_1_alg».proof.Proof.LibDenseRows
import proofs.«426307_j3822520894068_1_alg».proof.Proof.LibWordArith
import Idealize.ShloMosaic.Lib.ReduceAll
import Idealize.ShloMosaic.Lib.StableHlo.Predicate

noncomputable section

namespace Cert.Take

open Idealize.ShloMosaic Idealize.ShloMosaic.ValueIdx DenseRows

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact foldl_andi_ones x hx l

/-- An and-reduction from the constant 1 of a mask that is 1 everywhere is 1 at every result index, whatever the
    reduced axes. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x hx _

/-- A select whose mask is the broadcast of a mask that is 1 everywhere takes its first operand everywhere. -/
theorem select_bcast_ones {α : Type} {s t : Shape} (dims : Fin s.rank → Fin t.rank) (h : s.BroadcastsInDim t dims)
    (m : IVec s 1) (hm : ∀ k, m k = 1#1) (a b : t.Idx → α) :
    select (broadcastInDim t dims h m) a b = a := by
  funext j
  show Scalar.select (broadcastInDim t dims h m j) (a j) (b j) = a j
  rw [show broadcastInDim t dims h m j = 1#1 from by unfold broadcastInDim; exact hm _]
  exact select_one _ _

/-- For a word of [0, 100000): the wrap of a negative index leaves it alone, and it passes the two tests
    0 ≤ · and · ≤ 99999. -/
theorem word_tests_of_range {w : BitVec 32} (h0 : 0 ≤ w.toInt) (h1 : w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hw : w.toNat < 2 ^ 31 := by
    have := BitVec.toInt_pos_iff.1 h0
    omega
  rw [Cert.Gcn.WordArith.select_slt_zero_small _ hw]
  refine IntOp.andi_eq_one.2 ⟨IntOp.cmpi_sge.2 ?_, IntOp.cmpi_sle.2 ?_⟩
  · rw [show (0#32 : BitVec 32).toInt = 0 from by decide]; exact h0
  · rw [show (99999#32 : BitVec 32).toInt = 99999 from by decide]; omega

/-- The masked take is the plain gather when every index word is a row number. -/
theorem take_eq_gather {e : ℕ}
    (d : GatherDims ⟨2, ![100000, 128]⟩ ⟨2, ![e, 1]⟩ ⟨2, ![e, 128]⟩)
    (hb0 : (⟨0, ![]⟩ : Shape).BroadcastsInDim ⟨1, ![e]⟩ ![])
    (hb5 : (⟨1, ![e]⟩ : Shape).BroadcastsInDim ⟨2, ![e, 1]⟩ ![0])
    (hb6 : (⟨0, ![]⟩ : Shape).BroadcastsInDim ⟨2, ![e, 1]⟩ ![])
    (hb8 : (⟨1, ![1]⟩ : Shape).BroadcastsInDim ⟨2, ![1, 1]⟩ ![1])
    (hb9 : (⟨2, ![1, 1]⟩ : Shape).BroadcastsInDim ⟨2, ![e, 1]⟩ ![0, 1])
    (hred : (⟨2, ![e, 1]⟩ : Shape).ReducesTo [1] ⟨1, ![e]⟩) (hS : 0 < (⟨0, ![]⟩ : Shape).numel)
    (hb14 : (⟨1, ![e]⟩ : Shape).BroadcastsInDim ⟨2, ![e, 128]⟩ ![0])
    (hb15 : (⟨0, ![]⟩ : Shape).BroadcastsInDim ⟨2, ![e, 128]⟩ ![])
    (x : Mat 100000 128) (v : IVec ⟨1, ![e]⟩ 32)
    (hv : ∀ p : Fin e, 0 ≤ (v (ix1 p)).toInt ∧ (v (ix1 p)).toInt < 100000) :
    select (broadcastInDim ⟨2, ![e, 128]⟩ ![0] hb14 (Host.reduce IntOp.andi
        (andi (cmpi .sge (broadcastInDim ⟨2, ![e, 1]⟩ ![0] hb5 (select (cmpi .slt v (broadcastInDim ⟨1, ![e]⟩ ![] hb0 (constantI ⟨0, ![]⟩ 32 0#32))) (addi v (broadcastInDim ⟨1, ![e]⟩ ![] hb0 (constantI ⟨0, ![]⟩ 32 100000#32))) v))
                (broadcastInDim ⟨2, ![e, 1]⟩ ![] hb6 (constantI ⟨0, ![]⟩ 32 0#32)))
              (cmpi .sle (broadcastInDim ⟨2, ![e, 1]⟩ ![0] hb5 (select (cmpi .slt v (broadcastInDim ⟨1, ![e]⟩ ![] hb0 (constantI ⟨0, ![]⟩ 32 0#32))) (addi v (broadcastInDim ⟨1, ![e]⟩ ![] hb0 (constantI ⟨0, ![]⟩ 32 100000#32))) v))
                (broadcastInDim ⟨2, ![e, 1]⟩ ![0, 1] hb9 (broadcastInDim ⟨2, ![1, 1]⟩ ![1] hb8 (constantI ⟨1, ![1]⟩ 32 99999#32)))))
        (constantI ⟨0, ![]⟩ 1 1#1) hred hS))
      (Host.gather d x (broadcastInDim ⟨2, ![e, 1]⟩ ![0] hb5 (select (cmpi .slt v (broadcastInDim ⟨1, ![e]⟩ ![] hb0 (constantI ⟨0, ![]⟩ 32 0#32))) (addi v (broadcastInDim ⟨1, ![e]⟩ ![] hb0 (constantI ⟨0, ![]⟩ 32 100000#32))) v)))
      (broadcastInDim ⟨2, ![e, 128]⟩ ![] hb15 (constant (F := Ideal) ⟨0, ![]⟩ .f32 0x7FC00000#32))
    = Host.gather d x (broadcastInDim ⟨2, ![e, 1]⟩ ![0] hb5 (select (cmpi .slt v (broadcastInDim ⟨1, ![e]⟩ ![] hb0 (constantI ⟨0, ![]⟩ 32 0#32))) (addi v (broadcastInDim ⟨1, ![e]⟩ ![] hb0 (constantI ⟨0, ![]⟩ 32 100000#32))) v)) := by
  have key : ∀ k : (⟨1, ![e]⟩ : Shape).Idx, 0 ≤ (v k).toInt ∧ (v k).toInt < 100000 := fun k => by
    rw [eq_ix1 k]; exact hv (k 0)
  refine select_bcast_ones ![0] hb14 _ (fun k => reduce_andi_ones _ hred hS (fun i => ?_) k) _ _
  exact word_tests_of_range (key _).1 (key _).2

/-- The scalar shape has exactly one index. -/
instance scalarIdx_subsingleton : Subsingleton (⟨0, ![]⟩ : Shape).Idx := ⟨fun a b => funext fun d => d.elim0⟩

/-- A word that tests, signed, at least 0 and below 100000 is an integer of [0, 100000). -/
theorem word_range_of_tests {w : BitVec 32}
    (h : IntOp.andi (IntOp.cmpi .sge w 0#32) (IntOp.cmpi .slt w 100000#32) = 1#1) :
    0 ≤ w.toInt ∧ w.toInt < 100000 := by
  obtain ⟨hge, hlt⟩ := IntOp.andi_eq_one.1 h
  have hge' := IntOp.cmpi_sge.1 hge
  have hlt' := IntOp.cmpi_slt.1 hlt
  rw [show (0#32 : BitVec 32).toInt = 0 from by decide] at hge'
  rw [show (100000#32 : BitVec 32).toInt = 100000 from by decide] at hlt'
  exact ⟨hge', hlt'⟩

open Cert.Pre_finite_inputs in
/-- The precondition is a conjunction whose last two conjuncts are "all of row 0 of the edge-index array" and "all of
    column 1 of the triplet array" pass the two signed tests; a conjunction that is 1 has every conjunct 1, and an
    and-reduction that is 1 has every element 1. -/
theorem pre_index_words [Cert.Pre_finite_inputs.Facts]
    (a0 : FVec Ideal S100000x128 .f32) (a1 : FVec Ideal S1600000x6 .f32) (a2 : FVec Ideal S1000000x42 .f32)
    (a3 : IVec S2x1600000 32) (a4 : IVec S1000000x3 32) (a5 : FVec Ideal S8x6 .f32) (a6 : FVec Ideal S128x8 .f32)
    (a7 : FVec Ideal S8x42 .f32) (a8 : FVec Ideal S128x8 .f32) (a9 a10 : FVec Ideal S128x128 .f32) (a11 : FVec Ideal S128 .f32)
    (a12 : FVec Ideal S128x128 .f32) (a13 : FVec Ideal S128 .f32) (a14 : FVec Ideal S128x128 .f32) (a15 : FVec Ideal S128 .f32)
    (h : Cert.Pre_finite_inputs.fn (F := Ideal) a0 a1 a2 a3 a4 a5 a6 a7 a8 a9 a10 a11 a12 a13 a14 a15 = (fun _ => 1#1)) :
    (∀ p : Fin 1600000,
      0 ≤ ((shapeCast S1600000 (extractStridedSlice S1x1600000 ![0, 0] a3 Facts.slices_S2x1600000_S1x1600000_0_0)
            Facts.shapeCasts_S1x1600000_S1600000) (ix1 p)).toInt
      ∧ ((shapeCast S1600000 (extractStridedSlice S1x1600000 ![0, 0] a3 Facts.slices_S2x1600000_S1x1600000_0_0)
            Facts.shapeCasts_S1x1600000_S1600000) (ix1 p)).toInt < 100000)
    ∧ (∀ p : Fin 1000000,
      0 ≤ ((shapeCast S1000000 (extractStridedSlice S1000000x1 ![0, 1] a4 Facts.slices_S1000000x3_S1000000x1_0_1)
            Facts.shapeCasts_S1000000x1_S1000000) (ix1 p)).toInt
      ∧ ((shapeCast S1000000 (extractStridedSlice S1000000x1 ![0, 1] a4 Facts.slices_S1000000x3_S1000000x1_0_1)
            Facts.shapeCasts_S1000000x1_S1000000) (ix1 p)).toInt < 100000) := by
  have h0 := congrFun h ix0
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨hA, hTrip⟩ := IntOp.andi_eq_one.1 h0
  obtain ⟨_, hEdge⟩ := IntOp.andi_eq_one.1 hA
  exact ⟨fun p => word_range_of_tests (Host.reduce_andi_all _ _ _ _ ix0 hEdge (ix1 p)),
    fun p => word_range_of_tests (Host.reduce_andi_all _ _ _ _ ix0 hTrip (ix1 p))⟩

open Cert.Pre_finite_inputs in
/-- The precondition's edge-index conjunct: every word of row 0 of the edge-index array is a row number. -/
theorem pre_edge_rows [Cert.Pre_finite_inputs.Facts]
    (a0 : FVec Ideal S100000x128 .f32) (a1 : FVec Ideal S1600000x6 .f32) (a2 : FVec Ideal S1000000x42 .f32)
    (a3 : IVec S2x1600000 32) (a4 : IVec S1000000x3 32) (a5 : FVec Ideal S8x6 .f32) (a6 : FVec Ideal S128x8 .f32)
    (a7 : FVec Ideal S8x42 .f32) (a8 : FVec Ideal S128x8 .f32) (a9 a10 : FVec Ideal S128x128 .f32) (a11 : FVec Ideal S128 .f32)
    (a12 : FVec Ideal S128x128 .f32) (a13 : FVec Ideal S128 .f32) (a14 : FVec Ideal S128x128 .f32) (a15 : FVec Ideal S128 .f32)
    (h : Cert.Pre_finite_inputs.fn (F := Ideal) a0 a1 a2 a3 a4 a5 a6 a7 a8 a9 a10 a11 a12 a13 a14 a15 = (fun _ => 1#1))
    (hs : S2x1600000.Slices ![0, 0] S1x1600000) (hc : S1x1600000.ShapeCasts S1600000) (p : Fin 1600000) :
    0 ≤ ((shapeCast S1600000 (extractStridedSlice S1x1600000 ![0, 0] a3 hs) hc) (ix1 p)).toInt
      ∧ ((shapeCast S1600000 (extractStridedSlice S1x1600000 ![0, 0] a3 hs) hc) (ix1 p)).toInt < 100000 :=
  (pre_index_words a0 a1 a2 a3 a4 a5 a6 a7 a8 a9 a10 a11 a12 a13 a14 a15 h).1 p

open Cert.Pre_finite_inputs in
/-- The precondition's triplet conjunct: every word of column 1 of the triplet array is a row number. -/
theorem pre_trip_rows [Cert.Pre_finite_inputs.Facts]
    (a0 : FVec Ideal S100000x128 .f32) (a1 : FVec Ideal S1600000x6 .f32) (a2 : FVec Ideal S1000000x42 .f32)
    (a3 : IVec S2x1600000 32) (a4 : IVec S1000000x3 32) (a5 : FVec Ideal S8x6 .f32) (a6 : FVec Ideal S128x8 .f32)
    (a7 : FVec Ideal S8x42 .f32) (a8 : FVec Ideal S128x8 .f32) (a9 a10 : FVec Ideal S128x128 .f32) (a11 : FVec Ideal S128 .f32)
    (a12 : FVec Ideal S128x128 .f32) (a13 : FVec Ideal S128 .f32) (a14 : FVec Ideal S128x128 .f32) (a15 : FVec Ideal S128 .f32)
    (h : Cert.Pre_finite_inputs.fn (F := Ideal) a0 a1 a2 a3 a4 a5 a6 a7 a8 a9 a10 a11 a12 a13 a14 a15 = (fun _ => 1#1))
    (hs : S1000000x3.Slices ![0, 1] S1000000x1) (hc : S1000000x1.ShapeCasts S1000000) (p : Fin 1000000) :
    0 ≤ ((shapeCast S1000000 (extractStridedSlice S1000000x1 ![0, 1] a4 hs) hc) (ix1 p)).toInt
      ∧ ((shapeCast S1000000 (extractStridedSlice S1000000x1 ![0, 1] a4 hs) hc) (ix1 p)).toInt < 100000 :=
  (pre_index_words a0 a1 a2 a3 a4 a5 a6 a7 a8 a9 a10 a11 a12 a13 a14 a15 h).2 p

end Cert.Take

end
-- ==== Proof.RefForms.lean ====
/-
  The reference's stages as the block's matrix functions.

  Each stage of the reference that a kernel region recomputes is, at the extended reals, one of the functions of
  Spec.lean applied to the arguments with the weights transposed and the biases laid as one-row matrices: the host's
  contraction is the matrix product, its two broadcasts of a bias vector add that row to every row, the reference's expansion
  x · (1 / (1 + e⁻ˣ)) of the gate is z·σ(z), and the sum over the triplet axis from the initial value 0 is the column
  sum (0 + s = s, and the factors of each term commute).
-/
import proofs.«426307_j3822520894068_1_alg».proof.Proof.Gen.ReferenceIdeal.Read
import proofs.«426307_j3822520894068_1_alg».proof.Proof.Spec

noncomputable section

namespace Cert.ReferenceIdeal.RefForms

open Idealize.ShloMosaic Idealize.ShloMosaic.ValueIdx Cert.ReferenceIdeal Cert.ReferenceIdeal.Read DenseRows
open Cert.ReferenceIdeal.Facts₀ Cert.ReferenceIdeal.Facts

/-! ## The pieces -/

/-- The word 0x3F800000 is the real number 1: sign 0, biased exponent 127, mantissa 0. -/
theorem ofBits_one_f32 : Ideal.ofBits .f32 0x3F800000#32 = 1 := by
  simp [Ideal.ofBits, Ideal.ieee, -EReal.coe_mul]; norm_num

/-! Each contraction of the reference contracts axis 1 of the left operand with axis 0 of the right one, with no
    batch axes: it is the plain product of an m×k by a k×n matrix. -/

theorem dot_node_eq_mm (A : Mat 100000 128) (B : Mat 128 128) :
    Host.dotGeneral (F := Ideal) dot_S100000x128_S128x128_S100000x128_1_0_0_1_n_n none A B = mm A B :=
  dotGeneral_plain_eq_mm none A B

theorem dot_rbf1_eq_mm (A : Mat 1600000 6) (B : Mat 6 8) :
    Host.dotGeneral (F := Ideal) dot_S1600000x6_S6x8_S1600000x8_1_0_0_1_n_n none A B = mm A B :=
  dotGeneral_plain_eq_mm none A B

theorem dot_rbf2_eq_mm (A : Mat 1600000 8) (B : Mat 8 128) :
    Host.dotGeneral (F := Ideal) dot_S1600000x8_S8x128_S1600000x128_1_0_0_1_n_n none A B = mm A B :=
  dotGeneral_plain_eq_mm none A B

theorem dot_sbf1_eq_mm (A : Mat 1000000 42) (B : Mat 42 8) :
    Host.dotGeneral (F := Ideal) dot_S1000000x42_S42x8_S1000000x8_1_0_0_1_n_n none A B = mm A B :=
  dotGeneral_plain_eq_mm none A B

theorem dot_sbf2_eq_mm (A : Mat 1000000 8) (B : Mat 8 128) :
    Host.dotGeneral (F := Ideal) dot_S1000000x8_S8x128_S1000000x128_1_0_0_1_n_n none A B = mm A B :=
  dotGeneral_plain_eq_mm none A B

/-- The reference's expansion of the gate: z · (1 / (1 + e⁻ᶻ)), the two ones being splats of the constant 1, is z·σ(z)
    entry by entry, because σ(z) is by definition 1 / (1 + e⁻ᶻ) on the extended reals. -/
theorem gate_host_form {m n : Nat} (Z : Mat m n) (hb : (⟨0, ![]⟩ : Shape).BroadcastsInDim ⟨2, ![m, n]⟩ ![]) :
    mulf Z (Host.divf (broadcastInDim (⟨2, ![m, n]⟩ : Shape) ![] hb (constant (F := Ideal) (⟨0, ![]⟩ : Shape) .f32 0x3F800000#32))
      (addf (broadcastInDim (⟨2, ![m, n]⟩ : Shape) ![] hb (constant (F := Ideal) (⟨0, ![]⟩ : Shape) .f32 0x3F800000#32))
        (Host.exp (Host.negf Z))))
      = Cert.Spec.siluM Z := by
  funext i
  show Z i * Ideal.div (Ideal.ofBits .f32 0x3F800000#32) (Ideal.ofBits .f32 0x3F800000#32 + Ideal.exp (-(Z i)))
    = Z i * Ideal.logistic (Z i)
  rw [ofBits_one_f32]
  rfl

/-! ## The node stages -/

/-- x_up = x·W_upᵗ + b_up. -/
theorem v4_form (a0 : Mat 100000 128) (a12 : Mat 128 128) (a13 : Col 128) :
    val_main_v4 (F := Ideal) a0 a12 a13
      = Cert.Spec.dense a0 (transpose S128x128 [1, 0] a12 transposes_S128x128_S128x128_1_0) (asRow a13) := by
  unfold val_main_v4 val_main_v1 val_main_v3 val_main_v2 val_main_v0
  rw [dot_node_eq_mm, broadcastInDim_asRow, bias_host_form]
  rfl

/-- x_down = x·W_downᵗ + b_down. -/
theorem v9_form (a0 : Mat 100000 128) (a14 : Mat 128 128) (a15 : Col 128) :
    val_main_v9 (F := Ideal) a0 a14 a15
      = Cert.Spec.dense a0 (transpose S128x128 [1, 0] a14 transposes_S128x128_S128x128_1_0) (asRow a15) := by
  unfold val_main_v9 val_main_v6 val_main_v8 val_main_v7 val_main_v5
  rw [dot_node_eq_mm, broadcastInDim_asRow, bias_host_form]
  rfl

/-- The gated first layer of the node projection: silu(x_down·W_t1ᵗ). -/
theorem v34_form (a0 : Mat 100000 128) (a9 a14 : Mat 128 128) (a15 : Col 128) :
    val_main_v34 (F := Ideal) a0 a9 a14 a15
      = Cert.Spec.siluM (mm (val_main_v9 (F := Ideal) a0 a14 a15)
          (transpose S128x128 [1, 0] a9 transposes_S128x128_S128x128_1_0)) := by
  unfold val_main_v34 val_main_call2_v5 val_main_call2_v4 val_main_call2_cst_0 val_main_call2_v3 val_main_call2_v2
    val_main_call2_cst val_main_call2_v1 val_main_call2_v0 val_main_v33 val_main_v32
  rw [dot_node_eq_mm]
  exact gate_host_form _ bcast_S_S100000x128

/-- t = silu(x_down·W_t1ᵗ)·W_t2ᵗ + b_t2. -/
theorem v39_form (a0 : Mat 100000 128) (a9 a10 : Mat 128 128) (a11 : Col 128) (a14 : Mat 128 128) (a15 : Col 128) :
    val_main_v39 (F := Ideal) a0 a9 a10 a11 a14 a15
      = Cert.Spec.tproj (val_main_v9 (F := Ideal) a0 a14 a15) (transpose S128x128 [1, 0] a9 transposes_S128x128_S128x128_1_0)
          (transpose S128x128 [1, 0] a10 transposes_S128x128_S128x128_1_0) (asRow a11) := by
  unfold val_main_v39 val_main_v36 val_main_v38 val_main_v37 val_main_v35
  rw [v34_form, dot_node_eq_mm, broadcastInDim_asRow, bias_host_form]
  rfl

/-! ## The two embeddings -/

/-- The gated first layer of the radial embedding: silu(rbf·W_rbf1ᵗ). -/
theorem v12_form (a1 : Mat 1600000 6) (a5 : Mat 8 6) :
    val_main_v12 (F := Ideal) a1 a5
      = Cert.Spec.siluM (mm a1 (transpose S6x8 [1, 0] a5 transposes_S8x6_S6x8_1_0)) := by
  unfold val_main_v12 val_main_call0_v5 val_main_call0_v4 val_main_call0_cst_0 val_main_call0_v3 val_main_call0_v2
    val_main_call0_cst val_main_call0_v1 val_main_call0_v0 val_main_v11 val_main_v10
  rw [dot_rbf1_eq_mm]
  exact gate_host_form _ bcast_S_S1600000x8

/-- rbf_emb = silu(rbf·W_rbf1ᵗ)·W_rbf2ᵗ. -/
theorem v14_form (a1 : Mat 1600000 6) (a5 : Mat 8 6) (a6 : Mat 128 8) :
    val_main_v14 (F := Ideal) a1 a5 a6
      = Cert.Spec.emb a1 (transpose S6x8 [1, 0] a5 transposes_S8x6_S6x8_1_0) (transpose S8x128 [1, 0] a6 transposes_S128x8_S8x128_1_0) := by
  unfold val_main_v14 val_main_v13
  rw [v12_form, dot_rbf2_eq_mm]
  rfl

/-- The gated first layer of the spherical embedding: silu(sbf·W_sbf1ᵗ). -/
theorem v29_form (a2 : Mat 1000000 42) (a7 : Mat 8 42) :
    val_main_v29 (F := Ideal) a2 a7
      = Cert.Spec.siluM (mm a2 (transpose S42x8 [1, 0] a7 transposes_S8x42_S42x8_1_0)) := by
  unfold val_main_v29 val_main_call1_v5 val_main_call1_v4 val_main_call1_cst_0 val_main_call1_v3 val_main_call1_v2
    val_main_call1_cst val_main_call1_v1 val_main_call1_v0 val_main_v28 val_main_v27
  rw [dot_sbf1_eq_mm]
  exact gate_host_form _ bcast_S_S1000000x8

/-- sbf_emb = silu(sbf·W_sbf1ᵗ)·W_sbf2ᵗ. -/
theorem v31_form (a2 : Mat 1000000 42) (a7 : Mat 8 42) (a8 : Mat 128 8) :
    val_main_v31 (F := Ideal) a2 a7 a8
      = Cert.Spec.emb a2 (transpose S42x8 [1, 0] a7 transposes_S8x42_S42x8_1_0) (transpose S8x128 [1, 0] a8 transposes_S128x8_S8x128_1_0) := by
  unfold val_main_v31 val_main_v30
  rw [v29_form, dot_sbf2_eq_mm]
  rfl

/-! ## The edge message -/

/-- The sum over the triplet axis of t[idx] ⊙ sbf_emb from the initial value 0, laid as one row, is the row of column
    sums of sbf_emb ⊙ t[idx]: 0 + s = s, and the two factors of each term commute. -/
theorem v50_row (a0 : Mat 100000 128) (a2 : Mat 1000000 42) (a4 : IVec S1000000x3 32) (a7 : Mat 8 42) (a8 : Mat 128 8)
    (a9 a10 : Mat 128 128) (a11 : Col 128) (a14 : Mat 128 128) (a15 : Col 128) :
    asRow (val_main_v50 (F := Ideal) a0 a2 a4 a7 a8 a9 a10 a11 a14 a15)
      = Cert.Spec.colSumProd (val_main_v31 (F := Ideal) a2 a7 a8) (val_main_v48 (F := Ideal) a0 a4 a9 a10 a11 a14 a15) := by
  funext i
  obtain ⟨u, q, rfl⟩ : ∃ (u : Fin 1) (q : Fin 128), i = ix2 u q := ⟨i 0, i 1, eq_ix2 i⟩
  show val_main_v50 (F := Ideal) a0 a2 a4 a7 a8 a9 a10 a11 a14 a15 (ix1 q)
    = ∑ r : Fin 1000000, val_main_v31 (F := Ideal) a2 a7 a8 (ix2 r q) * val_main_v48 (F := Ideal) a0 a4 a9 a10 a11 a14 a15 (ix2 r q)
  rw [val_main_v50_apply]
  have h0 : val_main_cst (F := Ideal) (Shape.Idx.first h_S_) = 0 := Ideal.ofBits_zero_f32
  rw [h0, zero_add]
  refine Finset.sum_congr rfl fun k _ => ?_
  have hk : idx_main_v50 (ix1 q) k = ix2 k q :=
    funext fun a => Fin.ext (by match a with | ⟨0, _⟩ => rfl | ⟨1, _⟩ => rfl)
  rw [hk]
  unfold val_main_v49
  exact (mulf_apply _ _ _).trans (mul_comm _ _)

/-- x_edge = x_up[row] ⊙ rbf_emb + (column sums of sbf_emb ⊙ t[idx]) added to every row. -/
theorem v53_form (a0 : Mat 100000 128) (a1 : Mat 1600000 6) (a2 : Mat 1000000 42) (a3 : IVec S2x1600000 32) (a4 : IVec S1000000x3 32)
    (a5 : Mat 8 6) (a6 : Mat 128 8) (a7 : Mat 8 42) (a8 : Mat 128 8) (a9 a10 : Mat 128 128) (a11 : Col 128)
    (a12 : Mat 128 128) (a13 : Col 128) (a14 : Mat 128 128) (a15 : Col 128) :
    val_main_v53 (F := Ideal) a0 a1 a2 a3 a4 a5 a6 a7 a8 a9 a10 a11 a12 a13 a14 a15
      = Cert.Spec.edge (val_main_v25 (F := Ideal) a0 a3 a12 a13) (val_main_v14 (F := Ideal) a1 a5 a6)
          (Cert.Spec.colSumProd (val_main_v31 (F := Ideal) a2 a7 a8) (val_main_v48 (F := Ideal) a0 a4 a9 a10 a11 a14 a15)) := by
  unfold val_main_v53 val_main_v26 val_main_v52 val_main_v51
  rw [broadcastInDim_asRow, bias_host_form, v50_row]
  rfl

end Cert.ReferenceIdeal.RefForms

end
-- ==== Proof.KernelValue.lean ====
/-
  The idealized kernel program's result as a function of its arguments.

  The program is three regions among stretches of host operations. Walking the buffer contents from the launch to the
  return: the first stretch transposes the eight weight matrices and lays the three biases of the node projections as
  one-row matrices; the first region leaves x_up = x·W_upᵗ + b_up and t = silu(x_down·W_t1ᵗ)·W_t2ᵗ + b_t2; the next
  stretches cut row 0 and row 1 of the edge-index array and column 1 of the triplet array and take the rows of x_up and
  of t they name — under the precondition every such word is a row number, so the take is the plain row gather —; the
  second region leaves the column sums of sbf_emb ⊙ t_gathered, the third x_up_gathered ⊙ rbf_emb plus that row, and the
  last stretch scatter-adds those edge rows into a zero matrix by the destination words and adds x. The reference
  computes the same matrices stage by stage (RefForms.lean) and ends in the same scatter-add, so the two results are
  one term.
-/
import proofs.«426307_j3822520894068_1_alg».proof.Proof.KernelRun
import proofs.«426307_j3822520894068_1_alg».proof.Defs
import proofs.«426307_j3822520894068_1_alg».proof.Proof.Region0
import proofs.«426307_j3822520894068_1_alg».proof.Proof.Region1
import proofs.«426307_j3822520894068_1_alg».proof.Proof.Region2
import proofs.«426307_j3822520894068_1_alg».proof.Proof.Take
import proofs.«426307_j3822520894068_1_alg».proof.Proof.RefForms

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen DenseRows

variable (m : (ℓ : Loc nD τ sig) → Buf (Elt Ideal) ℓ) (ρ : Dev nD → PrngReg)

/-- A buffer no operation of a stretch writes holds after the stretch what it held before. -/
local macro "untouched " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch: the transposed weights and the bias rows -/

theorem W1_arg (c : Dev nD) (b : Ref sig .tc) (hb : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ hb

theorem W1_v0 (c : Dev nD) : (W1 m ρ c (Proc.devRef .tc main_v0) : Mat 128 128)
    = transpose S128x128 [1, 0] (m ((c : Thread nD τ).loc main_arg12)) Gen.transposes_S128x128_S128x128_1_0 := by
  show StableHlo.after hostOps0 (W0 m ρ c) (Proc.devRef .tc main_v0) = _
  after_results
theorem W1_v1 (c : Dev nD) : (W1 m ρ c (Proc.devRef .tc main_v1) : Mat 128 128)
    = transpose S128x128 [1, 0] (m ((c : Thread nD τ).loc main_arg14)) Gen.transposes_S128x128_S128x128_1_0 := by
  show StableHlo.after hostOps0 (W0 m ρ c) (Proc.devRef .tc main_v1) = _
  after_results
theorem W1_v2 (c : Dev nD) : (W1 m ρ c (Proc.devRef .tc main_v2) : Mat 128 128)
    = transpose S128x128 [1, 0] (m ((c : Thread nD τ).loc main_arg9)) Gen.transposes_S128x128_S128x128_1_0 := by
  show StableHlo.after hostOps0 (W0 m ρ c) (Proc.devRef .tc main_v2) = _
  after_results
theorem W1_v3 (c : Dev nD) : (W1 m ρ c (Proc.devRef .tc main_v3) : Mat 128 128)
    = transpose S128x128 [1, 0] (m ((c : Thread nD τ).loc main_arg10)) Gen.transposes_S128x128_S128x128_1_0 := by
  show StableHlo.after hostOps0 (W0 m ρ c) (Proc.devRef .tc main_v3) = _
  after_results
theorem W1_v4 (c : Dev nD) : (W1 m ρ c (Proc.devRef .tc main_v4) : Mat 6 8)
    = transpose S6x8 [1, 0] (m ((c : Thread nD τ).loc main_arg5)) Gen.transposes_S8x6_S6x8_1_0 := by
  show StableHlo.after hostOps0 (W0 m ρ c) (Proc.devRef .tc main_v4) = _
  after_results
theorem W1_v5 (c : Dev nD) : (W1 m ρ c (Proc.devRef .tc main_v5) : Mat 8 128)
    = transpose S8x128 [1, 0] (m ((c : Thread nD τ).loc main_arg6)) Gen.transposes_S128x8_S8x128_1_0 := by
  show StableHlo.after hostOps0 (W0 m ρ c) (Proc.devRef .tc main_v5) = _
  after_results
theorem W1_v6 (c : Dev nD) : (W1 m ρ c (Proc.devRef .tc main_v6) : Mat 42 8)
    = transpose S42x8 [1, 0] (m ((c : Thread nD τ).loc main_arg7)) Gen.transposes_S8x42_S42x8_1_0 := by
  show StableHlo.after hostOps0 (W0 m ρ c) (Proc.devRef .tc main_v6) = _
  after_results
theorem W1_v7 (c : Dev nD) : (W1 m ρ c (Proc.devRef .tc main_v7) : Mat 8 128)
    = transpose S8x128 [1, 0] (m ((c : Thread nD τ).loc main_arg8)) Gen.transposes_S128x8_S8x128_1_0 := by
  show StableHlo.after hostOps0 (W0 m ρ c) (Proc.devRef .tc main_v7) = _
  after_results
theorem W1_v8 (c : Dev nD) : (W1 m ρ c (Proc.devRef .tc main_v8) : Mat 1 128)
    = asRow (m ((c : Thread nD τ).loc main_arg13)) := by
  show StableHlo.after hostOps0 (W0 m ρ c) (Proc.devRef .tc main_v8) = _
  after_results
  exact shapeCast_asRow _ _
theorem W1_v9 (c : Dev nD) : (W1 m ρ c (Proc.devRef .tc main_v9) : Mat 1 128)
    = asRow (m ((c : Thread nD τ).loc main_arg15)) := by
  show StableHlo.after hostOps0 (W0 m ρ c) (Proc.devRef .tc main_v9) = _
  after_results
  exact shapeCast_asRow _ _
theorem W1_v10 (c : Dev nD) : (W1 m ρ c (Proc.devRef .tc main_v10) : Mat 1 128)
    = asRow (m ((c : Thread nD τ).loc main_arg11)) := by
  show StableHlo.after hostOps0 (W0 m ρ c) (Proc.devRef .tc main_v10) = _
  after_results
  exact shapeCast_asRow _ _

theorem W1_a0 (c : Dev nD) : W1 m ρ c (Proc.devRef .tc main_arg0) = m ((c : Thread nD τ).loc main_arg0) := by
  show StableHlo.after hostOps0 (W0 m ρ c) (Proc.devRef .tc main_arg0) = _
  after_results
theorem W1_a1 (c : Dev nD) : W1 m ρ c (Proc.devRef .tc main_arg1) = m ((c : Thread nD τ).loc main_arg1) := by
  show StableHlo.after hostOps0 (W0 m ρ c) (Proc.devRef .tc main_arg1) = _
  after_results
theorem W1_a2 (c : Dev nD) : W1 m ρ c (Proc.devRef .tc main_arg2) = m ((c : Thread nD τ).loc main_arg2) := by
  show StableHlo.after hostOps0 (W0 m ρ c) (Proc.devRef .tc main_arg2) = _
  after_results
theorem W1_a3 (c : Dev nD) : W1 m ρ c (Proc.devRef .tc main_arg3) = m ((c : Thread nD τ).loc main_arg3) := by
  show StableHlo.after hostOps0 (W0 m ρ c) (Proc.devRef .tc main_arg3) = _
  after_results
theorem W1_a4 (c : Dev nD) : W1 m ρ c (Proc.devRef .tc main_arg4) = m ((c : Thread nD τ).loc main_arg4) := by
  show StableHlo.after hostOps0 (W0 m ρ c) (Proc.devRef .tc main_arg4) = _
  after_results

/-! ## After the first region: x_up and t -/

/-- x_up, the first region's first result, over the launch arguments. -/
theorem W2_xup (c : Dev nD) : (W2 m ρ c (Proc.devRef .tc main_v11_0) : Mat 100000 128)
    = Cert.Spec.dense (m ((c : Thread nD τ).loc main_arg0))
        (transpose S128x128 [1, 0] (m ((c : Thread nD τ).loc main_arg12)) Gen.transposes_S128x128_S128x128_1_0)
        (asRow (m ((c : Thread nD τ).loc main_arg13))) := by
  refine (W2_arr m ρ c 8).trans ((Cert.KernelIdeal.Region0.xup_arr (V1 m ρ) c).trans ?_)
  rw [show (V1 m ρ c main_arg0 : Mat 100000 128) = _ from W1_a0 m ρ c, show (V1 m ρ c main_v0 : Mat 128 128) = _ from W1_v0 m ρ c,
    show (V1 m ρ c main_v8 : Mat 1 128) = _ from W1_v8 m ρ c]

/-- t, the first region's second result, over the launch arguments. -/
theorem W2_t (c : Dev nD) : (W2 m ρ c (Proc.devRef .tc main_v11_1) : Mat 100000 128)
    = Cert.Spec.tproj (Cert.Spec.dense (m ((c : Thread nD τ).loc main_arg0))
          (transpose S128x128 [1, 0] (m ((c : Thread nD τ).loc main_arg14)) Gen.transposes_S128x128_S128x128_1_0)
          (asRow (m ((c : Thread nD τ).loc main_arg15))))
        (transpose S128x128 [1, 0] (m ((c : Thread nD τ).loc main_arg9)) Gen.transposes_S128x128_S128x128_1_0)
        (transpose S128x128 [1, 0] (m ((c : Thread nD τ).loc main_arg10)) Gen.transposes_S128x128_S128x128_1_0)
        (asRow (m ((c : Thread nD τ).loc main_arg11))) := by
  refine (W2_arr m ρ c 9).trans ((Cert.KernelIdeal.Region0.t_arr (V1 m ρ) c).trans ?_)
  rw [show (V1 m ρ c main_arg0 : Mat 100000 128) = _ from W1_a0 m ρ c, show (V1 m ρ c main_v1 : Mat 128 128) = _ from W1_v1 m ρ c,
    show (V1 m ρ c main_v9 : Mat 1 128) = _ from W1_v9 m ρ c, show (V1 m ρ c main_v2 : Mat 128 128) = _ from W1_v2 m ρ c,
    show (V1 m ρ c main_v3 : Mat 128 128) = _ from W1_v3 m ρ c, show (V1 m ρ c main_v10 : Mat 1 128) = _ from W1_v10 m ρ c]

/-! ## The index vectors and the two takes -/

theorem W2_a3 (c : Dev nD) : W2 m ρ c (Proc.devRef .tc main_arg3) = m ((c : Thread nD τ).loc main_arg3) :=
  (W2_of_ne m ρ c main_arg3 (by decide)).trans (W1_a3 m ρ c)
theorem W2_a4 (c : Dev nD) : W2 m ρ c (Proc.devRef .tc main_arg4) = m ((c : Thread nD τ).loc main_arg4) :=
  (W2_of_ne m ρ c main_arg4 (by decide)).trans (W1_a4 m ρ c)

/-- Row 0 of the edge-index array (the source rows) as a vector of 1600000 words. -/
def srcVec (a3 : IVec S2x1600000 32) : IVec S1600000 32 :=
  shapeCast S1600000 (extractStridedSlice S1x1600000 ![0, 0] a3 Gen.slices_S2x1600000_S1x1600000_0_0) Gen.shapeCasts_S1x1600000_S1600000

/-- Row 1 of the edge-index array (the destination rows) as a vector of 1600000 words. -/
def dstVec (a3 : IVec S2x1600000 32) : IVec S1600000 32 :=
  shapeCast S1600000 (extractStridedSlice S1x1600000 ![1, 0] a3 Gen.slices_S2x1600000_S1x1600000_1_0) Gen.shapeCasts_S1x1600000_S1600000

/-- Column 1 of the triplet array as a vector of 1000000 words. -/
def tripVec (a4 : IVec S1000000x3 32) : IVec S1000000 32 :=
  shapeCast S1000000 (extractStridedSlice S1000000x1 ![0, 1] a4 Gen.slices_S1000000x3_S1000000x1_0_1) Gen.shapeCasts_S1000000x1_S1000000

/-- The start-index column of a row gather from 1600000 index words: a negative word moved up by 100000. -/
def startCol16 (v : IVec S1600000 32) : IVec S1600000x1 32 :=
  broadcastInDim S1600000x1 ![0] Gen.bcast_S1600000_S1600000x1_0
    (select (cmpi .slt v (broadcastInDim S1600000 ![] Gen.bcast_S_S1600000 (constantI S_ 32 0#32)))
      (addi v (broadcastInDim S1600000 ![] Gen.bcast_S_S1600000 (constantI S_ 32 100000#32))) v)

/-- The same for 1000000 index words. -/
def startCol10 (v : IVec S1000000 32) : IVec S1000000x1 32 :=
  broadcastInDim S1000000x1 ![0] Gen.bcast_S1000000_S1000000x1_0
    (select (cmpi .slt v (broadcastInDim S1000000 ![] Gen.bcast_S_S1000000 (constantI S_ 32 0#32)))
      (addi v (broadcastInDim S1000000 ![] Gen.bcast_S_S1000000 (constantI S_ 32 100000#32))) v)

/-- The stretch that cuts the index vectors, from any contents. -/
theorem cut_src (Wv : Valuation τ sig (Elt Ideal)) :
    (StableHlo.after hostOps1 Wv (Proc.devRef .tc main_v13) : IVec S1600000 32) = srcVec (Wv (Proc.devRef .tc main_arg3)) := by
  after_results
  rfl
theorem cut_dst (Wv : Valuation τ sig (Elt Ideal)) :
    (StableHlo.after hostOps1 Wv (Proc.devRef .tc main_v15) : IVec S1600000 32) = dstVec (Wv (Proc.devRef .tc main_arg3)) := by
  after_results
  rfl
theorem cut_trip (Wv : Valuation τ sig (Elt Ideal)) :
    (StableHlo.after hostOps1 Wv (Proc.devRef .tc main_v17) : IVec S1000000 32) = tripVec (Wv (Proc.devRef .tc main_arg4)) := by
  after_results
  rfl

/-- The in-range test of a start-index column of 1600000 words, row by row: 0 ≤ word ≤ 99999. -/
def rowMask16 (s : IVec S1600000x1 32) : IVec S1600000 1 :=
  Host.reduce IntOp.andi
    (andi (cmpi .sge s (broadcastInDim S1600000x1 ![] Gen.bcast_S_S1600000x1 (constantI S_ 32 0#32)))
      (cmpi .sle s (broadcastInDim S1600000x1 ![0, 1] Gen.bcast_S1x1_S1600000x1_0_1
        (broadcastInDim S1x1 ![1] Gen.bcast_S1_S1x1_1 (constantI S1 32 99999#32)))))
    (constantI S_ 1 1#1) Gen.reducesTo_S1600000x1_S1600000_d1 Gen.h_S_

/-- Rows gathered at a start-index column, the rows whose test bit is clear replaced by the fill word. -/
def fillRows16 (k : IVec S1600000 1) (x : Mat 100000 128) (s : IVec S1600000x1 32) : Mat 1600000 128 :=
  select (broadcastInDim S1600000x128 ![0] Gen.bcast_S1600000_S1600000x128_0 k)
    (Host.gather gather_S100000x128_S1600000x1_S1600000x128_1_0_n_n_0_1_1128 x s)
    (broadcastInDim S1600000x128 ![] Gen.bcast_S_S1600000x128 (constant (F := Ideal) S_ .f32 0x7FC00000#32))

/-- Taking 1600000 rows of a 100000-row table with the rows whose start index falls outside [0, 99999] filled. -/
def filledTake16 (x : Mat 100000 128) (v : IVec S1600000 32) : Mat 1600000 128 :=
  fillRows16 (rowMask16 (startCol16 v)) x (startCol16 v)

/-- With every index word a row number nothing is filled: the take is the row gather. -/
theorem filledTake16_eq (x : Mat 100000 128) (v : IVec S1600000 32)
    (hv : ∀ p : Fin 1600000, 0 ≤ (v (ix1 p)).toInt ∧ (v (ix1 p)).toInt < 100000) :
    filledTake16 x v = Host.gather gather_S100000x128_S1600000x1_S1600000x128_1_0_n_n_0_1_1128 x (startCol16 v) :=
  Cert.Take.take_eq_gather (e := 1600000) gather_S100000x128_S1600000x1_S1600000x128_1_0_n_n_0_1_1128
    Gen.bcast_S_S1600000 Gen.bcast_S1600000_S1600000x1_0 Gen.bcast_S_S1600000x1 Gen.bcast_S1_S1x1_1 Gen.bcast_S1x1_S1600000x1_0_1
    Gen.reducesTo_S1600000x1_S1600000_d1 Gen.h_S_ Gen.bcast_S1600000_S1600000x128_0 Gen.bcast_S_S1600000x128 x v hv

/-! The take's stretch in three stages, each from any contents: the start-index column (operations 1–8), the row test
    (operations 9–18), the gather and the fill (operations 19–23). -/

theorem take16_split : (hostOps1_1 : List (HloOp τ sig (Elt Ideal)))
    = hostOps1_1.take 8 ++ ((hostOps1_1.drop 8).take 10 ++ hostOps1_1.drop 18) := rfl

theorem take16_A (X : Valuation τ sig (Elt Ideal)) :
    (StableHlo.after ((hostOps1_1 : List (HloOp τ sig (Elt Ideal))).take 8) X (Proc.devRef .tc main_call0_v5) : IVec S1600000x1 32)
      = startCol16 (X (Proc.devRef .tc main_v13)) := by
  simp only [hostOps1_1, List.take_succ_cons, List.take_zero]
  after_results
  rfl
theorem take16_A_x (X : Valuation τ sig (Elt Ideal)) :
    StableHlo.after ((hostOps1_1 : List (HloOp τ sig (Elt Ideal))).take 8) X (Proc.devRef .tc main_v11_0) = X (Proc.devRef .tc main_v11_0) := by
  simp only [hostOps1_1, List.take_succ_cons, List.take_zero]
  after_results
theorem take16_B (Y : Valuation τ sig (Elt Ideal)) :
    (StableHlo.after (((hostOps1_1 : List (HloOp τ sig (Elt Ideal))).drop 8).take 10) Y (Proc.devRef .tc main_call0_v12) : IVec S1600000 1)
      = rowMask16 (Y (Proc.devRef .tc main_call0_v5)) := by
  simp only [hostOps1_1, List.drop_succ_cons, List.drop_zero, List.take_succ_cons, List.take_zero]
  after_results
  simp only [TRef.toBuf, TRef.ofBuf, cast_eq]
  rfl
theorem take16_B_s (Y : Valuation τ sig (Elt Ideal)) :
    StableHlo.after (((hostOps1_1 : List (HloOp τ sig (Elt Ideal))).drop 8).take 10) Y (Proc.devRef .tc main_call0_v5) = Y (Proc.devRef .tc main_call0_v5) := by
  simp only [hostOps1_1, List.drop_succ_cons, List.drop_zero, List.take_succ_cons, List.take_zero]
  after_results
theorem take16_B_x (Y : Valuation τ sig (Elt Ideal)) :
    StableHlo.after (((hostOps1_1 : List (HloOp τ sig (Elt Ideal))).drop 8).take 10) Y (Proc.devRef .tc main_v11_0) = Y (Proc.devRef .tc main_v11_0) := by
  simp only [hostOps1_1, List.drop_succ_cons, List.drop_zero, List.take_succ_cons, List.take_zero]
  after_results
theorem take16_C (Z : Valuation τ sig (Elt Ideal)) :
    (StableHlo.after ((hostOps1_1 : List (HloOp τ sig (Elt Ideal))).drop 18) Z (Proc.devRef .tc main_v18) : Mat 1600000 128)
      = fillRows16 (Z (Proc.devRef .tc main_call0_v12)) (Z (Proc.devRef .tc main_v11_0)) (Z (Proc.devRef .tc main_call0_v5)) := by
  simp only [hostOps1_1, List.drop_succ_cons, List.drop_zero]
  after_results
  rfl

/-- The take's stretch, from any contents. -/
theorem take16_seg (Wv : Valuation τ sig (Elt Ideal)) :
    (StableHlo.after hostOps1_1 Wv (Proc.devRef .tc main_v18) : Mat 1600000 128)
      = filledTake16 (Wv (Proc.devRef .tc main_v11_0)) (Wv (Proc.devRef .tc main_v13)) := by
  rw [take16_split, StableHlo.after_append, StableHlo.after_append, take16_C, take16_B, take16_B_x, take16_B_s, take16_A, take16_A_x]
  rfl

/-- The in-range test of a start-index column of 1000000 words, row by row: 0 ≤ word ≤ 99999. -/
def rowMask10 (s : IVec S1000000x1 32) : IVec S1000000 1 :=
  Host.reduce IntOp.andi
    (andi (cmpi .sge s (broadcastInDim S1000000x1 ![] Gen.bcast_S_S1000000x1 (constantI S_ 32 0#32)))
      (cmpi .sle s (broadcastInDim S1000000x1 ![0, 1] Gen.bcast_S1x1_S1000000x1_0_1
        (broadcastInDim S1x1 ![1] Gen.bcast_S1_S1x1_1 (constantI S1 32 99999#32)))))
    (constantI S_ 1 1#1) Gen.reducesTo_S1000000x1_S1000000_d1 Gen.h_S_

/-- Rows gathered at a start-index column, the rows whose test bit is clear replaced by the fill word. -/
def fillRows10 (k : IVec S1000000 1) (x : Mat 100000 128) (s : IVec S1000000x1 32) : Mat 1000000 128 :=
  select (broadcastInDim S1000000x128 ![0] Gen.bcast_S1000000_S1000000x128_0 k)
    (Host.gather gather_S100000x128_S1000000x1_S1000000x128_1_0_n_n_0_1_1128 x s)
    (broadcastInDim S1000000x128 ![] Gen.bcast_S_S1000000x128 (constant (F := Ideal) S_ .f32 0x7FC00000#32))

/-- Taking 1000000 rows of a 100000-row table with the rows whose start index falls outside [0, 99999] filled. -/
def filledTake10 (x : Mat 100000 128) (v : IVec S1000000 32) : Mat 1000000 128 :=
  fillRows10 (rowMask10 (startCol10 v)) x (startCol10 v)

/-- With every index word a row number nothing is filled: the take is the row gather. -/
theorem filledTake10_eq (x : Mat 100000 128) (v : IVec S1000000 32)
    (hv : ∀ p : Fin 1000000, 0 ≤ (v (ix1 p)).toInt ∧ (v (ix1 p)).toInt < 100000) :
    filledTake10 x v = Host.gather gather_S100000x128_S1000000x1_S1000000x128_1_0_n_n_0_1_1128 x (startCol10 v) :=
  Cert.Take.take_eq_gather (e := 1000000) gather_S100000x128_S1000000x1_S1000000x128_1_0_n_n_0_1_1128
    Gen.bcast_S_S1000000 Gen.bcast_S1000000_S1000000x1_0 Gen.bcast_S_S1000000x1 Gen.bcast_S1_S1x1_1 Gen.bcast_S1x1_S1000000x1_0_1
    Gen.reducesTo_S1000000x1_S1000000_d1 Gen.h_S_ Gen.bcast_S1000000_S1000000x128_0 Gen.bcast_S_S1000000x128 x v hv

/-! The take's stretch in three stages, each from any contents: the start-index column (operations 1–8), the row test
    (operations 9–18), the gather and the fill (operations 19–23). -/

theorem take10_split : (hostOps1_2 : List (HloOp τ sig (Elt Ideal)))
    = hostOps1_2.take 8 ++ ((hostOps1_2.drop 8).take 10 ++ hostOps1_2.drop 18) := rfl

theorem take10_A (X : Valuation τ sig (Elt Ideal)) :
    (StableHlo.after ((hostOps1_2 : List (HloOp τ sig (Elt Ideal))).take 8) X (Proc.devRef .tc main_call1_v5) : IVec S1000000x1 32)
      = startCol10 (X (Proc.devRef .tc main_v17)) := by
  simp only [hostOps1_2, List.take_succ_cons, List.take_zero]
  after_results
  rfl
theorem take10_A_x (X : Valuation τ sig (Elt Ideal)) :
    StableHlo.after ((hostOps1_2 : List (HloOp τ sig (Elt Ideal))).take 8) X (Proc.devRef .tc main_v11_1) = X (Proc.devRef .tc main_v11_1) := by
  simp only [hostOps1_2, List.take_succ_cons, List.take_zero]
  after_results
theorem take10_B (Y : Valuation τ sig (Elt Ideal)) :
    (StableHlo.after (((hostOps1_2 : List (HloOp τ sig (Elt Ideal))).drop 8).take 10) Y (Proc.devRef .tc main_call1_v12) : IVec S1000000 1)
      = rowMask10 (Y (Proc.devRef .tc main_call1_v5)) := by
  simp only [hostOps1_2, List.drop_succ_cons, List.drop_zero, List.take_succ_cons, List.take_zero]
  after_results
  simp only [TRef.toBuf, TRef.ofBuf, cast_eq]
  rfl
theorem take10_B_s (Y : Valuation τ sig (Elt Ideal)) :
    StableHlo.after (((hostOps1_2 : List (HloOp τ sig (Elt Ideal))).drop 8).take 10) Y (Proc.devRef .tc main_call1_v5) = Y (Proc.devRef .tc main_call1_v5) := by
  simp only [hostOps1_2, List.drop_succ_cons, List.drop_zero, List.take_succ_cons, List.take_zero]
  after_results
theorem take10_B_x (Y : Valuation τ sig (Elt Ideal)) :
    StableHlo.after (((hostOps1_2 : List (HloOp τ sig (Elt Ideal))).drop 8).take 10) Y (Proc.devRef .tc main_v11_1) = Y (Proc.devRef .tc main_v11_1) := by
  simp only [hostOps1_2, List.drop_succ_cons, List.drop_zero, List.take_succ_cons, List.take_zero]
  after_results
theorem take10_C (Z : Valuation τ sig (Elt Ideal)) :
    (StableHlo.after ((hostOps1_2 : List (HloOp τ sig (Elt Ideal))).drop 18) Z (Proc.devRef .tc main_v19) : Mat 1000000 128)
      = fillRows10 (Z (Proc.devRef .tc main_call1_v12)) (Z (Proc.devRef .tc main_v11_1)) (Z (Proc.devRef .tc main_call1_v5)) := by
  simp only [hostOps1_2, List.drop_succ_cons, List.drop_zero]
  after_results
  rfl

/-- The take's stretch, from any contents. -/
theorem take10_seg (Wv : Valuation τ sig (Elt Ideal)) :
    (StableHlo.after hostOps1_2 Wv (Proc.devRef .tc main_v19) : Mat 1000000 128)
      = filledTake10 (Wv (Proc.devRef .tc main_v11_1)) (Wv (Proc.devRef .tc main_v17)) := by
  rw [take10_split, StableHlo.after_append, StableHlo.after_append, take10_C, take10_B, take10_B_x, take10_B_s, take10_A, take10_A_x]
  rfl

/-! ## The gathered rows, under the precondition -/

theorem W3_src (c : Dev nD) : (W3 m ρ c (Proc.devRef .tc main_v13) : IVec S1600000 32) = srcVec (m ((c : Thread nD τ).loc main_arg3)) :=
  (cut_src (W2 m ρ c)).trans (congrArg srcVec (W2_a3 m ρ c))
theorem W3_dst (c : Dev nD) : (W3 m ρ c (Proc.devRef .tc main_v15) : IVec S1600000 32) = dstVec (m ((c : Thread nD τ).loc main_arg3)) :=
  (cut_dst (W2 m ρ c)).trans (congrArg dstVec (W2_a3 m ρ c))
theorem W3_trip (c : Dev nD) : (W3 m ρ c (Proc.devRef .tc main_v17) : IVec S1000000 32) = tripVec (m ((c : Thread nD τ).loc main_arg4)) :=
  (cut_trip (W2 m ρ c)).trans (congrArg tripVec (W2_a4 m ρ c))

theorem W3_xup (c : Dev nD) : W3 m ρ c (Proc.devRef .tc main_v11_0) = W2 m ρ c (Proc.devRef .tc main_v11_0) := by
  untouched hostOps1
theorem W3_t (c : Dev nD) : W3 m ρ c (Proc.devRef .tc main_v11_1) = W2 m ρ c (Proc.devRef .tc main_v11_1) := by
  untouched hostOps1
theorem W4_t (c : Dev nD) : W4 m ρ c (Proc.devRef .tc main_v11_1) = W2 m ρ c (Proc.devRef .tc main_v11_1) :=
  (by untouched hostOps1_1 : W4 m ρ c (Proc.devRef .tc main_v11_1) = W3 m ρ c (Proc.devRef .tc main_v11_1)).trans (W3_t m ρ c)
theorem W4_trip (c : Dev nD) : (W4 m ρ c (Proc.devRef .tc main_v17) : IVec S1000000 32) = tripVec (m ((c : Thread nD τ).loc main_arg4)) :=
  (by untouched hostOps1_1 : W4 m ρ c (Proc.devRef .tc main_v17) = W3 m ρ c (Proc.devRef .tc main_v17)).trans (W3_trip m ρ c)

/-- x_up's rows at the source words of the edges. -/
theorem W4_xupg (hpre : Cert.Pre_KernelIdeal m) (c : Dev nD) : (W4 m ρ c (Proc.devRef .tc main_v18) : Mat 1600000 128)
    = Host.gather gather_S100000x128_S1600000x1_S1600000x128_1_0_n_n_0_1_1128 (W2 m ρ c (Proc.devRef .tc main_v11_0))
        (startCol16 (srcVec (m ((c : Thread nD τ).loc main_arg3)))) := by
  refine (take16_seg (W3 m ρ c)).trans ?_
  rw [W3_src m ρ c, W3_xup m ρ c]
  exact filledTake16_eq _ _ (fun p => Cert.Take.pre_edge_rows _ _ _ _ _ _ _ _ _ _ _ _ _ _ _ _ (hpre c) _ _ p)

/-- t's rows at the middle words of the triplets. -/
theorem W5_tg (hpre : Cert.Pre_KernelIdeal m) (c : Dev nD) : (W5 m ρ c (Proc.devRef .tc main_v19) : Mat 1000000 128)
    = Host.gather gather_S100000x128_S1000000x1_S1000000x128_1_0_n_n_0_1_1128 (W2 m ρ c (Proc.devRef .tc main_v11_1))
        (startCol10 (tripVec (m ((c : Thread nD τ).loc main_arg4)))) := by
  refine (take10_seg (W4 m ρ c)).trans ?_
  rw [W4_trip m ρ c, W4_t m ρ c]
  exact filledTake10_eq _ _ (fun p => Cert.Take.pre_trip_rows _ _ _ _ _ _ _ _ _ _ _ _ _ _ _ _ (hpre c) _ _ p)

/-! ## What the second and third regions find, and leave -/

/-- A buffer that the three middle stretches and the first region leave alone holds at the second region's entry what
    the first stretch left. -/
theorem W5_of_W1 (c : Dev nD) (b : Ref sig .tc)
    (h2 : W5 m ρ c (Proc.devRef .tc b) = W4 m ρ c (Proc.devRef .tc b)) (h1 : W4 m ρ c (Proc.devRef .tc b) = W3 m ρ c (Proc.devRef .tc b))
    (h0 : W3 m ρ c (Proc.devRef .tc b) = W2 m ρ c (Proc.devRef .tc b)) (hb : ∀ w, Pipeline.arrRef spec0 w ≠ b) :
    W5 m ρ c (Proc.devRef .tc b) = W1 m ρ c (Proc.devRef .tc b) :=
  h2.trans (h1.trans (h0.trans (W2_of_ne m ρ c b hb)))

theorem W5_a2 (c : Dev nD) : W5 m ρ c (Proc.devRef .tc main_arg2) = m ((c : Thread nD τ).loc main_arg2) :=
  (W5_of_W1 m ρ c main_arg2 (by untouched hostOps1_2) (by untouched hostOps1_1) (by untouched hostOps1) (by decide)).trans (W1_a2 m ρ c)
theorem W5_v6 (c : Dev nD) : (W5 m ρ c (Proc.devRef .tc main_v6) : Mat 42 8)
    = transpose S42x8 [1, 0] (m ((c : Thread nD τ).loc main_arg7)) Gen.transposes_S8x42_S42x8_1_0 :=
  (W5_of_W1 m ρ c main_v6 (by untouched hostOps1_2) (by untouched hostOps1_1) (by untouched hostOps1) (by decide)).trans (W1_v6 m ρ c)
theorem W5_v7 (c : Dev nD) : (W5 m ρ c (Proc.devRef .tc main_v7) : Mat 8 128)
    = transpose S8x128 [1, 0] (m ((c : Thread nD τ).loc main_arg8)) Gen.transposes_S128x8_S8x128_1_0 :=
  (W5_of_W1 m ρ c main_v7 (by untouched hostOps1_2) (by untouched hostOps1_1) (by untouched hostOps1) (by decide)).trans (W1_v7 m ρ c)
theorem W5_a1 (c : Dev nD) : W5 m ρ c (Proc.devRef .tc main_arg1) = m ((c : Thread nD τ).loc main_arg1) :=
  (W5_of_W1 m ρ c main_arg1 (by untouched hostOps1_2) (by untouched hostOps1_1) (by untouched hostOps1) (by decide)).trans (W1_a1 m ρ c)
theorem W5_v4 (c : Dev nD) : (W5 m ρ c (Proc.devRef .tc main_v4) : Mat 6 8)
    = transpose S6x8 [1, 0] (m ((c : Thread nD τ).loc main_arg5)) Gen.transposes_S8x6_S6x8_1_0 :=
  (W5_of_W1 m ρ c main_v4 (by untouched hostOps1_2) (by untouched hostOps1_1) (by untouched hostOps1) (by decide)).trans (W1_v4 m ρ c)
theorem W5_v5 (c : Dev nD) : (W5 m ρ c (Proc.devRef .tc main_v5) : Mat 8 128)
    = transpose S8x128 [1, 0] (m ((c : Thread nD τ).loc main_arg6)) Gen.transposes_S128x8_S8x128_1_0 :=
  (W5_of_W1 m ρ c main_v5 (by untouched hostOps1_2) (by untouched hostOps1_1) (by untouched hostOps1) (by decide)).trans (W1_v5 m ρ c)
theorem W5_xupg (c : Dev nD) : W5 m ρ c (Proc.devRef .tc main_v18) = W4 m ρ c (Proc.devRef .tc main_v18) := by
  untouched hostOps1_2
theorem W5_dst (c : Dev nD) : (W5 m ρ c (Proc.devRef .tc main_v15) : IVec S1600000 32) = dstVec (m ((c : Thread nD τ).loc main_arg3)) :=
  (by untouched hostOps1_2 : W5 m ρ c (Proc.devRef .tc main_v15) = W4 m ρ c (Proc.devRef .tc main_v15)).trans
    ((by untouched hostOps1_1 : W4 m ρ c (Proc.devRef .tc main_v15) = W3 m ρ c (Proc.devRef .tc main_v15)).trans (W3_dst m ρ c))
theorem W5_a0 (c : Dev nD) : W5 m ρ c (Proc.devRef .tc main_arg0) = m ((c : Thread nD τ).loc main_arg0) :=
  (by untouched hostOps1_2 : W5 m ρ c (Proc.devRef .tc main_arg0) = W4 m ρ c (Proc.devRef .tc main_arg0)).trans
    ((by untouched hostOps1_1 : W4 m ρ c (Proc.devRef .tc main_arg0) = W3 m ρ c (Proc.devRef .tc main_arg0)).trans
      ((by untouched hostOps1 : W3 m ρ c (Proc.devRef .tc main_arg0) = W2 m ρ c (Proc.devRef .tc main_arg0)).trans
        ((W2_arr m ρ c 0).trans ((((dat0 (V1 m ρ) c).arrAt_in 0 rfl _).trans (A_eq0 (V1 m ρ) c 0)).trans (W1_a0 m ρ c)))))

/-- The second region's result: the column sums of sbf_emb ⊙ t_gathered. -/
theorem W6_extra (hpre : Cert.Pre_KernelIdeal m) (c : Dev nD) : (W6 m ρ c (Proc.devRef .tc main_v20) : Mat 1 128)
    = Cert.Spec.colSumProd
        (Cert.Spec.emb (m ((c : Thread nD τ).loc main_arg2))
          (transpose S42x8 [1, 0] (m ((c : Thread nD τ).loc main_arg7)) Gen.transposes_S8x42_S42x8_1_0)
          (transpose S8x128 [1, 0] (m ((c : Thread nD τ).loc main_arg8)) Gen.transposes_S128x8_S8x128_1_0))
        (Host.gather gather_S100000x128_S1000000x1_S1000000x128_1_0_n_n_0_1_1128 (W2 m ρ c (Proc.devRef .tc main_v11_1))
          (startCol10 (tripVec (m ((c : Thread nD τ).loc main_arg4))))) := by
  refine (W6_arr m ρ c 4).trans ((Cert.KernelIdeal.Region1.extra_arr (V5 m ρ) c).trans ?_)
  rw [show (V5 m ρ c main_arg2 : Mat 1000000 42) = _ from W5_a2 m ρ c, show (V5 m ρ c main_v6 : Mat 42 8) = _ from W5_v6 m ρ c,
    show (V5 m ρ c main_v7 : Mat 8 128) = _ from W5_v7 m ρ c, show (V5 m ρ c main_v19 : Mat 1000000 128) = _ from W5_tg m ρ hpre c]

/-- The third region's result: the edge messages. -/
theorem W7_edge (hpre : Cert.Pre_KernelIdeal m) (c : Dev nD) : (W7 m ρ c (Proc.devRef .tc main_v21) : Mat 1600000 128)
    = Cert.Spec.edge
        (Host.gather gather_S100000x128_S1600000x1_S1600000x128_1_0_n_n_0_1_1128 (W2 m ρ c (Proc.devRef .tc main_v11_0))
          (startCol16 (srcVec (m ((c : Thread nD τ).loc main_arg3)))))
        (Cert.Spec.emb (m ((c : Thread nD τ).loc main_arg1))
          (transpose S6x8 [1, 0] (m ((c : Thread nD τ).loc main_arg5)) Gen.transposes_S8x6_S6x8_1_0)
          (transpose S8x128 [1, 0] (m ((c : Thread nD τ).loc main_arg6)) Gen.transposes_S128x8_S8x128_1_0))
        (W6 m ρ c (Proc.devRef .tc main_v20)) := by
  refine (W7_arr m ρ c 5).trans ((Cert.KernelIdeal.Region2.edge_arr (V6 m ρ) c).trans ?_)
  rw [show (V6 m ρ c main_v18 : Mat 1600000 128) = _ from (W6_of_ne m ρ c main_v18 (by decide)).trans ((W5_xupg m ρ c).trans (W4_xupg m ρ hpre c)),
    show (V6 m ρ c main_arg1 : Mat 1600000 6) = _ from (W6_of_ne m ρ c main_arg1 (by decide)).trans (W5_a1 m ρ c),
    show (V6 m ρ c main_v4 : Mat 6 8) = _ from (W6_of_ne m ρ c main_v4 (by decide)).trans (W5_v4 m ρ c),
    show (V6 m ρ c main_v5 : Mat 8 128) = _ from (W6_of_ne m ρ c main_v5 (by decide)).trans (W5_v5 m ρ c)]

/-! ## The last stretch -/

/-- The scatter-add of edge rows into a zero matrix by destination words, plus x. -/
def scatterTail (x : Mat 100000 128) (v : IVec S1600000 32) (E : Mat 1600000 128) : Mat 100000 128 :=
  addf x (Host.scatterAdd scatter_S100000x128_S1600000x1_S1600000x128_1_0_0_1
    (broadcastInDim S100000x128 ![] Gen.bcast_S_S100000x128 (constant (F := Ideal) S_ .f32 0x00000000#32)) (startCol16 v) E)

theorem tail_seg (Wv : Valuation τ sig (Elt Ideal)) :
    (StableHlo.after hostOps3 Wv (Proc.devRef .tc main_v30) : Mat 100000 128)
      = scatterTail (Wv (Proc.devRef .tc main_arg0)) (Wv (Proc.devRef .tc main_v15)) (Wv (Proc.devRef .tc main_v21)) := by
  after_results
  rfl

theorem W7_a0 (c : Dev nD) : W7 m ρ c (Proc.devRef .tc main_arg0) = m ((c : Thread nD τ).loc main_arg0) :=
  (W7_of_ne m ρ c main_arg0 (by decide)).trans ((W6_of_ne m ρ c main_arg0 (by decide)).trans (W5_a0 m ρ c))
theorem W7_dst (c : Dev nD) : (W7 m ρ c (Proc.devRef .tc main_v15) : IVec S1600000 32) = dstVec (m ((c : Thread nD τ).loc main_arg3)) :=
  (W7_of_ne m ρ c main_v15 (by decide)).trans ((W6_of_ne m ρ c main_v15 (by decide)).trans (W5_dst m ρ c))

/-- The kernel program's result over its arguments. -/
theorem W8_result (hpre : Cert.Pre_KernelIdeal m) (c : Dev nD) : (W8 m ρ c (Proc.devRef .tc main_v30) : Mat 100000 128)
    = scatterTail (m ((c : Thread nD τ).loc main_arg0)) (dstVec (m ((c : Thread nD τ).loc main_arg3))) (W7 m ρ c (Proc.devRef .tc main_v21)) := by
  refine (tail_seg (W7 m ρ c)).trans ?_
  rw [W7_a0 m ρ c, W7_dst m ρ c]

/-! ## The reference's result is the same term -/

section Same

open Cert.ReferenceIdeal.Read

/-- The reference's start-index column for x_up's rows is the kernel program's. -/
theorem ref_src (a3 : IVec S2x1600000 32) : val_main_v24 (F := Ideal) a3 = startCol16 (srcVec a3) := rfl
/-- The reference's start-index column for the scatter is the kernel program's. -/
theorem ref_dst (a3 : IVec S2x1600000 32) : val_main_v60 (F := Ideal) a3 = startCol16 (dstVec a3) := rfl
/-- The reference's start-index column for t's rows is the kernel program's. -/
theorem ref_trip (a4 : IVec S1000000x3 32) : val_main_v47 (F := Ideal) a4 = startCol10 (tripVec a4) := rfl

/-- The reference's last two operations are the same scatter-add and sum. -/
theorem ref_tail (a0 : Mat 100000 128) (a3 : IVec S2x1600000 32) (E : Mat 1600000 128) :
    addf a0 (Host.scatterAdd Cert.ReferenceIdeal.scatter_S100000x128_S1600000x1_S1600000x128_1_0_0_1 (val_main_v54 (F := Ideal))
      (val_main_v60 (F := Ideal) a3) E) = scatterTail a0 (dstVec a3) E := rfl

end Same

/-- THE RESULT: the kernel program's result buffer ends at the reference's result term of the same arguments. -/
theorem result_eq (hpre : Cert.Pre_KernelIdeal m) (c : Dev nD) :
    (W8 m ρ c (Proc.devRef .tc main_v30) : Mat 100000 128)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [W8_result m ρ hpre c, W7_edge m ρ hpre c, W6_extra m ρ hpre c, W2_xup m ρ c, W2_t m ρ c]
  unfold Cert.ReferenceIdeal.Read.val_main_v62 Cert.ReferenceIdeal.Read.val_main_v61
  rw [ref_tail, Cert.ReferenceIdeal.RefForms.v53_form]
  unfold Cert.ReferenceIdeal.Read.val_main_v25 Cert.ReferenceIdeal.Read.val_main_v48
  rw [Cert.ReferenceIdeal.RefForms.v4_form, Cert.ReferenceIdeal.RefForms.v39_form, Cert.ReferenceIdeal.RefForms.v9_form,
    Cert.ReferenceIdeal.RefForms.v14_form, Cert.ReferenceIdeal.RefForms.v31_form, ref_src, ref_trip]
  rfl

end Cert.KernelIdeal.Whole

end
-- ==== Proof.lean ====
/-
  An interaction block of a message-passing network — node projections, two radial/spherical embeddings, a sum over
  triplets, edge messages and a scatter-add over destination nodes — computed by three tiled kernels among host
  operations, against the same block written as one host program.

  Over the extended reals both programs compute, from the same arguments,
      out = x + scatter_add(dst, x_up[src] ⊙ silu(rbf·W_rbf1ᵗ)·W_rbf2ᵗ + Σ_triplets silu(sbf·W_sbf1ᵗ)·W_sbf2ᵗ ⊙ t[mid])
  with x_up = x·W_upᵗ + b_up and t = silu((x·W_downᵗ + b_down)·W_t1ᵗ)·W_t2ᵗ + b_t2. The kernels tile the node, triplet and
  edge axes in bands of 4000 rows; every stage is row-local except the sum over triplets, which the second kernel
  accumulates band by band — a finite sum of extended reals regrouped, which needs only that addition is a commutative
  monoid there. The gate z·σ(z) is one function in both spellings. The one place the programs differ is the row lookup:
  the kernel program fills a row whose index word falls outside [0, 100000) with a fill word, the reference clamps the
  index; under the precondition (the source words of the edges and the middle words of the triplets are row numbers)
  neither happens and both read the row the word names. No finiteness of an input is used.

  The frames of the two kernel programs are the generated ones; the reference's frame is its generated run with the
  result dropped; no rewrite was applied when the kernel was idealized, so the preservation claim is trivial.
-/
import proofs.«426307_j3822520894068_1_alg».proof.Defs
import proofs.«426307_j3822520894068_1_alg».proof.Proof.Gen.Kernel
import proofs.«426307_j3822520894068_1_alg».proof.Proof.Gen.Kernel.Skeleton
import proofs.«426307_j3822520894068_1_alg».proof.Proof.Gen.Kernel.Launch
import proofs.«426307_j3822520894068_1_alg».proof.Proof.Gen.Kernel.Points
import proofs.«426307_j3822520894068_1_alg».proof.Proof.Gen.Kernel.Frame
import proofs.«426307_j3822520894068_1_alg».proof.Proof.Gen.KernelIdeal
import proofs.«426307_j3822520894068_1_alg».proof.Proof.Gen.KernelIdeal.Skeleton
import proofs.«426307_j3822520894068_1_alg».proof.Proof.Gen.KernelIdeal.Launch
import proofs.«426307_j3822520894068_1_alg».proof.Proof.Gen.KernelIdeal.Points
import proofs.«426307_j3822520894068_1_alg».proof.Proof.Gen.KernelIdeal.Frame
import proofs.«426307_j3822520894068_1_alg».proof.Proof.Gen.ReferenceIdeal
import proofs.«426307_j3822520894068_1_alg».proof.Proof.Gen.Pre_finite_inputs
import proofs.«426307_j3822520894068_1_alg».proof.Proof.Gen.ReferenceIdeal.Run
import proofs.«426307_j3822520894068_1_alg».proof.Proof.Gen.ReferenceIdeal.Read
import proofs.«426307_j3822520894068_1_alg».proof.Proof.KernelValue
import Idealize.ShloMosaic.Adequacy
import Idealize.ShloMosaic.Init

noncomputable section

namespace Cert.Proof

open Idealize.ShloMosaic Idealize.SL.Sem

/-- The word-level kernel program terminates without a fault and leaves its arguments as launched. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments the two idealized programs end with one result: the reference's result
    term of the kernel program's arguments. -/
theorem algebraic : Cert.algebraic_KernelIdeal_ReferenceIdeal := by
  intro m ρ m' ρ' hpre hagree
  refine ⟨fun c => Cert.ReferenceIdeal.Read.val_main_v62 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Whole.result_eq m ρ hpre c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v62_eq]
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
